-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S512x512 : Shape := ⟨2, ![512, 512]⟩
abbrev S512x256 : Shape := ⟨2, ![512, 256]⟩
abbrev S512 : Shape := ⟨1, ![512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_arg6 : FVec F S512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S256x512 .f32) (main_arg1 : FVec F S512x512 .f32) (main_arg2 : FVec F S512x256 .f32) (main_arg3 : FVec F S512x256 .f32) (main_arg4 : FVec F S512 .f32) (main_arg5 : FVec F S512 .f32) (main_arg6 : FVec F S512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S256x512 : Shape := ⟨2, ![256, 512]⟩
abbrev S512x512 : Shape := ⟨2, ![512, 512]⟩
abbrev S512x256 : Shape := ⟨2, ![512, 256]⟩
abbrev S512 : Shape := ⟨1, ![512]⟩
abbrev S1x512 : Shape := ⟨2, ![1, 512]⟩
abbrev S512x1 : Shape := ⟨2, ![512, 1]⟩
abbrev S64x128 : Shape := ⟨2, ![64, 128]⟩
abbrev S128x128 : Shape := ⟨2, ![128, 128]⟩
abbrev S64x128x1 : Shape := ⟨3, ![64, 128, 1]⟩
abbrev S1x128x128 : Shape := ⟨3, ![1, 128, 128]⟩
abbrev S64x128x128 : Shape := ⟨3, ![64, 128, 128]⟩

abbrev nBuf : Space → Nat
  | .hbm => 12
  | .vmem => 18
  | .smem => 0
  | _ => 0

abbrev bufTy : (tb : Table) → Fin (tcTables nBuf tb) → BufTy
  | .hbm, ⟨0, _⟩ => ⟨S256x512, .f32⟩
  | .hbm, ⟨1, _⟩ => ⟨S512x512, .f32⟩
  | .hbm, ⟨2, _⟩ => ⟨S512x256, .f32⟩
  | .hbm, ⟨3, _⟩ => ⟨S512x256, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S512x512, .f32⟩
  | .hbm, ⟨11, _⟩ => ⟨S256x512, .f32⟩
  | .local _ .vmem, ⟨0, _⟩ => ⟨S512x256, .f32⟩
  | .local _ .vmem, ⟨1, _⟩ => ⟨S512x256, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | .local _ .vmem, ⟨7, _⟩ => ⟨S64x128, .f32⟩
  | .local _ .vmem, ⟨8, _⟩ => ⟨S64x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S64x128, .f32⟩
  | .local _ .vmem, ⟨14, _⟩ => ⟨S64x128, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc1_scratch1 : Ref sig .tc := ⟨.vmem, 16, rfl⟩
abbrev cc1_scratch2 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v35 : BitVec 1 := Scalar.cmpi .eq arg2 c3_i32
  let v36 : BitVec 32 := Scalar.extui v35
  let c0_i32_20 : BitVec 32 := 0#32
  let v37 : BitVec 1 := Scalar.cmpi .ne v36 c0_i32_20
  v37

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S512_S1x512 : S512.ShapeCasts S1x512
  inb_S512x256_S512x256_0_0 : ∀ a, (![0, 0] : Fin 2 → Nat) a + S512x256.size a ≤ S512x256.size a
  h_S512x256 : 0 < S512x256.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  transposes_S512x256_p1_0_S256x512 : S512x256.Transposes [1, 0] S256x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  transposes_S512x512_p1_0_S512x512 : S512x512.Transposes [1, 0] S512x512
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  transposes_S128x128_p1_0_S128x128 : S128x128.Transposes [1, 0] S128x128
  shapeCasts_S64x128_S64x128x1 : S64x128.ShapeCasts S64x128x1
  shapeCasts_S128x128_S1x128x128 : S128x128.ShapeCasts S1x128x128
  broadcasts_S64x128x1_S64x128x128 : S64x128x1.Broadcasts S64x128x128
  broadcasts_S1x128x128_S64x128x128 : S1x128x128.Broadcasts S64x128x128
  reduces_S64x128x128_S64x128 : S64x128x128.Reduces [1] S64x128
  dot_S512x256_S256x512_S512x512_1_0_0_1_n_n_wf : DotDims.WF S512x256 S256x512 S512x512 [1] [0] [0] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S256x512.size a
  hwx1_0 : ∀ i : grid1.Coords, EltTy.bits .f32 = 32 ∨ (Rect.block (s := S256x512) S64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S512x512.size a
  hwx1_1 : ∀ i : grid1.Coords, EltTy.bits .f32 = 32 ∨ (Rect.block (s := S512x512) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S512x512.size a
  hwx1_2 : ∀ i : grid1.Coords, EltTy.bits .f32 = 32 ∨ (Rect.block (s := S512x512) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S256x512.size a
  hwx1_3 : ∀ i : grid1.Coords, EltTy.bits .f32 = 32 ∨ (Rect.block (s := S256x512) S64x128.size (cc1_transform_3 i) (hinb1_3 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg2) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x512.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S64x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S256x512 : Shape := ⟨2, ![256, 512]⟩
abbrev S512x512 : Shape := ⟨2, ![512, 512]⟩
abbrev S512x256 : Shape := ⟨2, ![512, 256]⟩
abbrev S512 : Shape := ⟨1, ![512]⟩
abbrev S1x512 : Shape := ⟨2, ![1, 512]⟩
abbrev S_ : Shape := ⟨0, ![]⟩
abbrev S512x1 : Shape := ⟨2, ![512, 1]⟩
abbrev S256x512x1 : Shape := ⟨3, ![256, 512, 1]⟩
abbrev S1x512x512 : Shape := ⟨3, ![1, 512, 512]⟩
abbrev S256x512x512 : Shape := ⟨3, ![256, 512, 512]⟩

abbrev nBuf : Space → Nat
  | .hbm => 72
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x512, .f32⟩
  | .hbm, ⟨2, _⟩ => ⟨S512x256, .f32⟩
  | .hbm, ⟨3, _⟩ => ⟨S512x256, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S256x512, .f32⟩
  | .hbm, ⟨8, _⟩ => ⟨S512x512, .f32⟩
  | .hbm, ⟨9, _⟩ => ⟨S1x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512, .f32⟩
  | .hbm, ⟨14, _⟩ => ⟨S512x1, .f32⟩
  | .hbm, ⟨15, _⟩ => ⟨S_, .f32⟩
  | .hbm, ⟨16, _⟩ => ⟨S512x1, .f32⟩
  | .hbm, ⟨17, _⟩ => ⟨S512x1, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S_, .f32⟩
  | .hbm, ⟨22, _⟩ => ⟨S512, .f32⟩
  | .hbm, ⟨23, _⟩ => ⟨S512x1, .f32⟩
  | .hbm, ⟨24, _⟩ => ⟨S_, .f32⟩
  | .hbm, ⟨25, _⟩ => ⟨S512x1, .f32⟩
  | .hbm, ⟨26, _⟩ => ⟨S512x1, .f32⟩
  | .hbm, ⟨27, _⟩ => ⟨S512x512, .f32⟩
  | .hbm, ⟨28, _⟩ => ⟨S512x512, .f32⟩
  | .hbm, ⟨29, _⟩ => ⟨S_, .f32⟩
  | .hbm, ⟨30, _⟩ => ⟨S512x1, .f32⟩
  | .hbm, ⟨31, _⟩ => ⟨S512x1, .f32⟩
  | .hbm, ⟨32, _⟩ => ⟨S512x1, .f32⟩
  | .hbm, ⟨33, _⟩ => ⟨S512x512, .f32⟩
  | .hbm, ⟨34, _⟩ => ⟨S512x512, .f32⟩
  | .hbm, ⟨35, _⟩ => ⟨S1x512, .f32⟩
  | .hbm, ⟨36, _⟩ => ⟨S512x512, .f32⟩
  | .hbm, ⟨37, _⟩ => ⟨S512x512, .f32⟩
  | .hbm, ⟨38, _⟩ => ⟨S1x512, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S_, .f32⟩
  | .hbm, ⟨44, _⟩ => ⟨S512x512, .f32⟩
  | .hbm, ⟨45, _⟩ => ⟨S512x512, .f32⟩
  | .hbm, ⟨46, _⟩ => ⟨S_, .f32⟩
  | .hbm, ⟨47, _⟩ => ⟨S512x512, .f32⟩
  | .hbm, ⟨48, _⟩ => ⟨S512x512, .f32⟩
  | .hbm, ⟨49, _⟩ => ⟨S256x512x1, .f32⟩
  | .hbm, ⟨50, _⟩ => ⟨S512x512, .f32⟩
  | .hbm, ⟨51, _⟩ => ⟨S1x512x512, .f32⟩
  | .hbm, ⟨52, _⟩ => ⟨S256x512x512, .f32⟩
  | .hbm, ⟨53, _⟩ => ⟨S256x512x512, .f32⟩
  | .hbm, ⟨54, _⟩ => ⟨S256x512x512, .f32⟩
  | .hbm, ⟨55, _⟩ => ⟨S256x512x512, .f32⟩
  | .hbm, ⟨56, _⟩ => ⟨S1x512x512, .f32⟩
  | .hbm, ⟨57, _⟩ => ⟨S256x512x512, .f32⟩
  | .hbm, ⟨58, _⟩ => ⟨S256x512x512, .f32⟩
  | .hbm, ⟨59, _⟩ => ⟨S256x512x512, .f32⟩
  | .hbm, ⟨60, _⟩ => ⟨S256x512x512, .f32⟩
  | .hbm, ⟨61, _⟩ => ⟨S_, .f32⟩
  | .hbm, ⟨62, _⟩ => ⟨S256x512, .f32⟩
  | .hbm, ⟨63, _⟩ => ⟨S_, .f32⟩
  | .hbm, ⟨64, _⟩ => ⟨S256x512, .f32⟩
  | .hbm, ⟨65, _⟩ => ⟨S256x512, .f32⟩
  | .hbm, ⟨66, _⟩ => ⟨S512x512, .f32⟩
  | .hbm, ⟨67, _⟩ => ⟨S256x512, .f32⟩
  | .hbm, ⟨68, _⟩ => ⟨S_, .f32⟩
  | .hbm, ⟨69, _⟩ => ⟨S256x512, .f32⟩
  | .hbm, ⟨70, _⟩ => ⟨S256x512, .f32⟩
  | .hbm, ⟨71, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_cst_7 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  transposes_S512x256_S256x512_1_0 : S512x256.Transposes [1, 0] S256x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  bcast_S_S512x512 : S_.BroadcastsInDim S512x512 (![] : Fin 0 → Fin S512x512.rank)
  bcast_S256x512_S256x512x1_0_1 : S256x512.BroadcastsInDim S256x512x1 (![0, 1] : Fin 2 → Fin S256x512x1.rank)
  transposes_S512x512_S512x512_1_0 : S512x512.Transposes [1, 0] S512x512
  bcast_S512x512_S1x512x512_1_2 : S512x512.BroadcastsInDim S1x512x512 (![1, 2] : Fin 2 → Fin S1x512x512.rank)
  bcast_S256x512x1_S256x512x512_0_1_2 : S256x512x1.BroadcastsInDim S256x512x512 (![0, 1, 2] : Fin 3 → Fin S256x512x512.rank)
  bcast_S1x512x512_S256x512x512_0_1_2 : S1x512x512.BroadcastsInDim S256x512x512 (![0, 1, 2] : Fin 3 → Fin S256x512x512.rank)
  reducesTo_S256x512x512_S256x512_d1 : S256x512x512.ReducesTo [1] S256x512
  bcast_S_S256x512 : S_.BroadcastsInDim S256x512 (![] : Fin 0 → Fin S256x512.rank)
  dot_S512x256_S256x512_S512x512_1_0_0_1_n_n_wf : DotDims.WF S512x256 S256x512 S512x512 [1] [0] [0] [1] [] []
  dot_S256x512_S512x512_S256x512_1_0_0_1_n_n_wf : DotDims.WF S256x512 S512x512 S256x512 [1] [0] [0] [1] [] []

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf

class Facts : Prop extends Facts₀ where

variable [Facts]
-- ==== Proof.Tiles.lean ====
/-
  The proof data of the two kernel regions, as plain definitions (no proofs): what each pallas_call's body
  leaves in its staging buffers and in its scratch accumulators at every grid point, as pure functions of
  the arrays the region is entered with.

  Region 0 (one grid point) writes the whole gate table: its one store's value over the six whole input
  blocks. Region 1 walks the grid (b, o, i) with i innermost. Its three scratch tiles hold, after point
  (b, o, i), the partial matrix product, the partial sum and the partial maximum over the reduction tiles
  0..i of that (b, o); the point i = 0 starts them from zero, zero and -inf. The output tile is stored at
  i = 3 only, from the three accumulators.
-/
import proofs.«166010_j21912923144501_1_alg».proof.Proof.Gen.KernelIdeal.Launch
import proofs.«166010_j21912923144501_1_alg».proof.Proof.Gen.KernelIdeal.Skeleton
import proofs.«166010_j21912923144501_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: the gate table -/

/-- Window w's block at point t, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rEmb : Rect S512x256 := Rect.unit (s := S512x256) ![0, 0] S512x256.size inb_S512x256_S512x256_0_0
abbrev rRow : Rect S1x512 := Rect.unit (s := S1x512) ![0, 0] S1x512.size inb_S1x512_S1x512_0_0
abbrev rSq : Rect S512x512 := Rect.unit (s := S512x512) ![0, 0] S512x512.size inb_S512x512_S512x512_0_0

/-- The gate table's staging buffer after the body: the one store, over the loads of the six input blocks. -/
def gateTile (x0 x1 : Vec F S512x256 .f32) (x2 x3 x4 : Vec F S1x512 .f32) (x5 : Vec F S512x512 .f32) : Vec F S512x512 .f32 :=
  View.canon [⟨rSq, k0_pay1 (View.ld x0 rEmb) (View.ld x1 rEmb) (View.ld x2 rRow) (View.ld x3 rRow) (View.ld x4 rRow) (View.ld x5 rSq)⟩]

/-- Region 0's proof data: inputs stay at their blocks, the output buffer holds the gate tile; the invariant is the
    scoped rest and the generator register; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => gateTile (iblk0 V c 0 t) (iblk0 V c 1 t) (iblk0 V c 2 t) (iblk0 V c 3 t) (iblk0 V c 4 t) (iblk0 V c 5 t)
  Φ _ := Pipeline.ΦA spec0 c
  q _ := fullShare
  owed _ := 0

/-! ## Region 1: the tiled reduction -/

/-- Window w's block at point t, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x tile, the weight tile and the gate tile at a point, at their literal types. -/
abbrev xTile (c : Dev nD) (t : Fin cfg1.N) : Vec F S64x128 .f32 := iblk1 V c 0 t
abbrev wTile (c : Dev nD) (t : Fin cfg1.N) : Vec F S128x128 .f32 := iblk1 V c 1 t
abbrev gTile (c : Dev nD) (t : Fin cfg1.N) : Vec F S128x128 .f32 := iblk1 V c 2 t

/-- The three accumulators (product, sum, maximum): what they hold, as a triple. -/
abbrev Acc (F : FTy → Type) [FloatOps F] : Type := Vec F S64x128 .f32 × Vec F S64x128 .f32 × Vec F S64x128 .f32

/-- What the point i = 0 starts them from: zero, zero, -inf. -/
def accReset : Acc F := (k1_pay3 (F := F), k1_pay4 (F := F), k1_pay5 (F := F))

/-- One point's update of the accumulators from the x, weight and gate tiles. -/
def accStep (p : Acc F) (X : Vec F S64x128 .f32) (Wt Gt : Vec F S128x128 .f32) : Acc F :=
  (k1_pay6 X Wt p.1, k1_pay1 (k1_pay9 X Gt p.2.1), k1_pay8 X Gt p.2.2)

/-- The output tile from the accumulators: product + 0.1 * (maximum - sum). -/
def outTile (p : Acc F) : Vec F S64x128 .f32 := k1_pay2 p.1 p.2.2 p.2.1

/-- The accumulators after the body at position n of the grid walk: restarted where n ≡ 0 (mod 4). -/
def accAt (c : Dev nD) : (n : ℕ) → n < cfg1.N → Acc F
  | 0, hn => accStep accReset (xTile V c ⟨0, hn⟩) (wTile V c ⟨0, hn⟩) (gTile V c ⟨0, hn⟩)
  | n + 1, hn =>
    if (n + 1) % 4 = 0 then accStep accReset (xTile V c ⟨n + 1, hn⟩) (wTile V c ⟨n + 1, hn⟩) (gTile V c ⟨n + 1, hn⟩)
    else accStep (accAt c n (Nat.lt_of_succ_lt hn)) (xTile V c ⟨n + 1, hn⟩) (wTile V c ⟨n + 1, hn⟩) (gTile V c ⟨n + 1, hn⟩)

/-- The three scratch operands as whole memrefs. -/
abbrev scr0 : Memref sig .tc .vmem S64x128 .f32 := Memref.whole cc1_scratch0
abbrev scr1 : Memref sig .tc .vmem S64x128 .f32 := Memref.whole cc1_scratch1
abbrev scr2 : Memref sig .tc .vmem S64x128 .f32 := Memref.whole cc1_scratch2

/-- Region 0's staging buffers, which region 1 never touches, each whole at some contents. -/
def idleStage (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f))

/-- Region 1's invariant before position n: before the first point the scoped rest at anything; afterwards the
    three scratch tiles at what the point before left, region 0's staging buffers at anything, the generator
    register at some state. -/
def accInv (c : Dev nD) : (n : ℕ) → n ≤ cfg1.N → sProp 𝕄
  | 0, _ => Pipeline.ΦA spec1 c
  | n + 1, hn => iprop(idleStage c
      ∗ owns (c : Thread nD τ) scr0 fullShare (accAt V c n hn).1
      ∗ owns (c : Thread nD τ) scr1 fullShare (accAt V c n hn).2.1
      ∗ owns (c : Thread nD τ) scr2 fullShare (accAt V c n hn).2.2
      ∗ (∃ r, prngReg c r))

/-- Region 1's proof data: inputs stay at their blocks; the output buffer holds the output tile of the point's
    accumulators (written back only where i = 3); the invariant carries the accumulators; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outTile (accAt V c t.val t.isLt)
  Φ t := accInv V c t.val (Nat.le_of_lt_succ t.isLt)
  q _ := fullShare
  owed _ := 0

end Cert.KernelIdeal.Hand

end
-- ==== Proof.Valuations.lean ====
/-
  The contents of the unscoped buffers between the items of @main, as valuations: the launch memory; the three
  reshapes applied; region 0's arrays at what its write-backs leave; region 1's. The arguments read back through
  them to the launch memory (no item writes one); the result buffer is region 1's output array after its last
  write-back; the gate table region 1 reads is region 0's output array.
-/
import proofs.«166010_j21912923144501_1_alg».proof.Proof.Tiles

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => m ((c : Dev nD), b)
/-- After the three reshapes (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## No item writes an argument -/

/-- The reshapes write none of the arguments. -/
theorem W1_of_arg (c : Dev nD) (b : Ref sig .tc) (hb : b ∉ ([main_v0, main_v1, main_v2] : List (Ref sig .tc))) :
    W1 m c (Proc.devRef .tc b) = m ((c : Thread nD τ).loc b) :=
  (StableHlo.after_of_forall_not_mem (b := Proc.devRef .tc b) _ _ (List.forall_iff_forall_mem.mp (by
    simp only [hostOps0, List.Forall, StableHlo.reshape_writes, Finset.mem_singleton]
    simp only [List.mem_cons, List.mem_nil_iff, or_false, not_or] at hb
    exact ⟨StableHlo.devRef_ne_of_ne hb.1, StableHlo.devRef_ne_of_ne hb.2.1, StableHlo.devRef_ne_of_ne hb.2.2⟩))).trans rfl

theorem A_eq0 (c : Dev nD) (w : Fin cfg0.W) : (dat0 (V1 m) c).A w = V1 m c (Pipeline.arrRef spec0 w) := by
  dsimp only [dat0]
theorem A_eq1 (c : Dev nD) (w : Fin cfg1.W) : (dat1 (V2 m) c).A w = V2 m c (Pipeline.arrRef spec1 w) := by
  dsimp only [dat1]

/-- An input array of region 0 leaves the region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 m c w))
/-- An input array of region 1 leaves the region as it entered. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 m c w))

theorem W3_main_arg0 (c : Dev nD) : W3 m c (Proc.devRef .tc main_arg0) = m ((c : Thread nD τ).loc main_arg0) :=
  (W3_in m c 0 rfl).trans ((W2_of_ne m c main_arg0 (by decide)).trans (W1_of_arg m c main_arg0 (by decide)))
theorem W3_main_arg1 (c : Dev nD) : W3 m c (Proc.devRef .tc main_arg1) = m ((c : Thread nD τ).loc main_arg1) :=
  (W3_in m c 1 rfl).trans ((W2_in m c 5 rfl).trans (W1_of_arg m c main_arg1 (by decide)))
theorem W3_main_arg2 (c : Dev nD) : W3 m c (Proc.devRef .tc main_arg2) = m ((c : Thread nD τ).loc main_arg2) :=
  (W3_of_ne m c main_arg2 (by decide)).trans ((W2_in m c 0 rfl).trans (W1_of_arg m c main_arg2 (by decide)))
theorem W3_main_arg3 (c : Dev nD) : W3 m c (Proc.devRef .tc main_arg3) = m ((c : Thread nD τ).loc main_arg3) :=
  (W3_of_ne m c main_arg3 (by decide)).trans ((W2_in m c 1 rfl).trans (W1_of_arg m c main_arg3 (by decide)))
theorem W3_main_arg4 (c : Dev nD) : W3 m c (Proc.devRef .tc main_arg4) = m ((c : Thread nD τ).loc main_arg4) :=
  (W3_of_ne m c main_arg4 (by decide)).trans ((W2_of_ne m c main_arg4 (by decide)).trans (W1_of_arg m c main_arg4 (by decide)))
theorem W3_main_arg5 (c : Dev nD) : W3 m c (Proc.devRef .tc main_arg5) = m ((c : Thread nD τ).loc main_arg5) :=
  (W3_of_ne m c main_arg5 (by decide)).trans ((W2_of_ne m c main_arg5 (by decide)).trans (W1_of_arg m c main_arg5 (by decide)))
theorem W3_main_arg6 (c : Dev nD) : W3 m c (Proc.devRef .tc main_arg6) = m ((c : Thread nD τ).loc main_arg6) :=
  (W3_of_ne m c main_arg6 (by decide)).trans ((W2_of_ne m c main_arg6 (by decide)).trans (W1_of_arg m c main_arg6 (by decide)))

/-- The result buffer ends at the reduction region's output array after its last write-back. -/
theorem W3_result (c : Dev nD) : W3 m c (Proc.devRef .tc main_v4) = (dat1 (V2 m) c).arrAt 3 cfg1.N :=
  W3_arr m c 3
/-- The gate table the reduction region reads is the gate region's output array after its write-back. -/
theorem V2_gate (c : Dev nD) : V2 m c main_v3 = (dat0 (V1 m) c).arrAt 6 cfg0.N :=
  W2_arr m c 6
/-- The reduction region finds x and the weights as launched. -/
theorem V2_main_arg0 (c : Dev nD) : V2 m c main_arg0 = m ((c : Thread nD τ).loc main_arg0) :=
  (W2_of_ne m c main_arg0 (by decide)).trans (W1_of_arg m c main_arg0 (by decide))
theorem V2_main_arg1 (c : Dev nD) : V2 m c main_arg1 = m ((c : Thread nD τ).loc main_arg1) :=
  (W2_in m c 5 rfl).trans (W1_of_arg m c main_arg1 (by decide))
/-- The gate region finds the embeddings, the attention weights and the weights as launched. -/
theorem V1_main_arg1 (c : Dev nD) : V1 m c main_arg1 = m ((c : Thread nD τ).loc main_arg1) := W1_of_arg m c main_arg1 (by decide)
theorem V1_main_arg2 (c : Dev nD) : V1 m c main_arg2 = m ((c : Thread nD τ).loc main_arg2) := W1_of_arg m c main_arg2 (by decide)
theorem V1_main_arg3 (c : Dev nD) : V1 m c main_arg3 = m ((c : Thread nD τ).loc main_arg3) := W1_of_arg m c main_arg3 (by decide)

end Cert.KernelIdeal.Hand

end
-- ==== Proof.GateFrame.lean ====
import proofs.«166010_j21912923144501_1_alg».proof.Proof.Tiles

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the pipeline hands the body

The grid has one point and every input window is fetched there, so each input's staging buffer holds the
window's block of its array: the whole array, since each block is the array itself. -/

/-- The proof data's arrays are the contents the region is entered with. -/
theorem arr0 (c : Dev nD) (w : Fin cfg0.W) : (dat0 V c).A w = V c (Pipeline.arrRef spec0 w) := by
  dsimp only [dat0]

/-- What the body leaves in each window's buffer, window by window. -/
theorem left0_0 (c : Dev nD) (t : Fin cfg0.N) : (dat0 V c).after 0 t = iblk0 V c 0 t := by dsimp only [dat0]
theorem left0_1 (c : Dev nD) (t : Fin cfg0.N) : (dat0 V c).after 1 t = iblk0 V c 1 t := by dsimp only [dat0]
theorem left0_2 (c : Dev nD) (t : Fin cfg0.N) : (dat0 V c).after 2 t = iblk0 V c 2 t := by dsimp only [dat0]
theorem left0_3 (c : Dev nD) (t : Fin cfg0.N) : (dat0 V c).after 3 t = iblk0 V c 3 t := by dsimp only [dat0]
theorem left0_4 (c : Dev nD) (t : Fin cfg0.N) : (dat0 V c).after 4 t = iblk0 V c 4 t := by dsimp only [dat0]
theorem left0_5 (c : Dev nD) (t : Fin cfg0.N) : (dat0 V c).after 5 t = iblk0 V c 5 t := by dsimp only [dat0]
theorem left0_6 (c : Dev nD) (t : Fin cfg0.N) : (dat0 V c).after 6 t
    = gateTile (iblk0 V c 0 t) (iblk0 V c 1 t) (iblk0 V c 2 t) (iblk0 V c 3 t) (iblk0 V c 4 t) (iblk0 V c 5 t) := by
  dsimp only [dat0]

/-- An input window fetched at the point holds, when the body starts, the fetched block: the uncut block of its array. -/
theorem held0_0 (c : Dev nD) (t : Fin cfg0.N) (d) : (dat0 V c).before 0 t d = iblk0 V c 0 t := by
  rw [(dat0 V c).before_fetched 0 t (fetch0_0 t) d]
  unfold Dat.fetched Dat.blockOf iblk0
  rw [arr0]
  rfl
theorem held0_1 (c : Dev nD) (t : Fin cfg0.N) (d) : (dat0 V c).before 1 t d = iblk0 V c 1 t := by
  rw [(dat0 V c).before_fetched 1 t (fetch0_1 t) d]
  unfold Dat.fetched Dat.blockOf iblk0
  rw [arr0]
  rfl
theorem held0_2 (c : Dev nD) (t : Fin cfg0.N) (d) : (dat0 V c).before 2 t d = iblk0 V c 2 t := by
  rw [(dat0 V c).before_fetched 2 t (fetch0_2 t) d]
  unfold Dat.fetched Dat.blockOf iblk0
  rw [arr0]
  rfl
theorem held0_3 (c : Dev nD) (t : Fin cfg0.N) (d) : (dat0 V c).before 3 t d = iblk0 V c 3 t := by
  rw [(dat0 V c).before_fetched 3 t (fetch0_3 t) d]
  unfold Dat.fetched Dat.blockOf iblk0
  rw [arr0]
  rfl
theorem held0_4 (c : Dev nD) (t : Fin cfg0.N) (d) : (dat0 V c).before 4 t d = iblk0 V c 4 t := by
  rw [(dat0 V c).before_fetched 4 t (fetch0_4 t) d]
  unfold Dat.fetched Dat.blockOf iblk0
  rw [arr0]
  rfl
theorem held0_5 (c : Dev nD) (t : Fin cfg0.N) (d) : (dat0 V c).before 5 t d = iblk0 V c 5 t := by
  rw [(dat0 V c).before_fetched 5 t (fetch0_5 t) d]
  unfold Dat.fetched Dat.blockOf iblk0
  rw [arr0]
  rfl

/-! ## The kernel on whole buffers -/

/-- The one store writes the whole 512x512 rectangle, so it covers the output buffer. -/
theorem gate_cover (p : Vec F S512x512 .f32) (y : S512x512.Idx) :
    ∃ pc ∈ ([⟨rSq, p⟩] : List (View.Piece (Elt F) S512x512 .f32)), y ∈ pc.1.set :=
  View.cover_of_tiled [⟨rSq, p⟩] S512x512.size (by rfl) y

set_option maxHeartbeats 1000000 in
/-- The kernel on whole staging memrefs: with the six inputs at x0..x5 and the output at anything, it loads the six
    inputs, reads the output buffer once (the value is not used), and stores the gate value over the whole output;
    the inputs are left as found and the output holds the gate tile of x0..x5. -/
theorem gate_kernel (c : Dev nD) (E : Set ℕ) (i : grid0.Coords)
    (a0 : Memref sig .tc .vmem S512x256 .f32) (h0 : a0.IsWhole) (a1 : Memref sig .tc .vmem S512x256 .f32) (h1 : a1.IsWhole)
    (a2 : Memref sig .tc .vmem S1x512 .f32) (h2 : a2.IsWhole) (a3 : Memref sig .tc .vmem S1x512 .f32) (h3 : a3.IsWhole)
    (a4 : Memref sig .tc .vmem S1x512 .f32) (h4 : a4.IsWhole) (a5 : Memref sig .tc .vmem S512x512 .f32) (h5 : a5.IsWhole)
    (a6 : Memref sig .tc .vmem S512x512 .f32) (h6 : a6.IsWhole)
    (x0 x1 : Vec F S512x256 .f32) (x2 x3 x4 : Vec F S1x512 .f32) (x5 : Vec F S512x512 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (gateTile x0 x1 x2 x3 x4 x5)) -∗ K ⟨⟩))
      ⊢ wp frame (wpE (defs₀ (F := F)) Variants.none c none) E (cc0__m_kernel i a0 h0 a1 h1 a2 h2 a3 h3 a4 h4 a5 h5 a6 h6) K := by
  simp only [cc0__m_kernel_eq_skeleton]; unfold cc0__m_kernel_skel
  simp only [k0_part1_eq_skeleton]; unfold k0_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%d6, %f6, -, H6⟩, Hk⟩
  subst e0 e1 e2 e3 e4 e5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (gate_cover _)

/-! ## The obligation at the point -/

/-- What the body is called with at the point: the invariant, the core's debt, and each window's staging buffer at what
    it then holds. -/
def gatePre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the same invariant and debt, each buffer at what the body leaves there. -/
def gatePost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at the point: the six input buffers hold their blocks, so the kernel's triple applies at those blocks;
    the invariant and the debt are not touched and pass through. -/
theorem gate_body (c : Dev nD) (t : Fin cfg0.N) :
    gatePre V c t ⊢ wp frame (wpE (defs₀ (F := F)) Variants.none c none) Set.univ (bodyAt0 t) (fun _ => gatePost V c t) := by
  unfold gatePre gatePost bodyAt0
  simp only [held0_0, held0_1, held0_2, held0_3, held0_4, held0_5]
  rw [show (dat0 V c).Φ t.succ = (dat0 V c).Φ t.castSucc from rfl,
    show (dat0 V c).owesAt () t.succ = (dat0 V c).owesAt () t.castSucc from rfl,
    left0_0, left0_1, left0_2, left0_3, left0_4, left0_5, left0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (gate_kernel c Set.univ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- Region 0's body obligation at its one grid point. -/
theorem body_obligation0 (c : Dev nD) : BodyObligation (dat0 (F := F) V c) (defs₀ (F := F)) Variants.none () Set.univ := by
  intro t
  rw [bigSep_W0, bigSep_W0]
  exact gate_body V c t

end Cert.KernelIdeal.Hand

end
-- ==== Proof.AccumFrame.lean ====
import proofs.«166010_j21912923144501_1_alg».proof.Proof.Tiles

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! Everything the three statements at the end of this module are proved from is kept in its own namespace. -/
namespace Accum

/-! ## The two branch conditions, decided over the grid -/

/-- The condition of the resetting branch, from the grid coordinates: the innermost coordinate is 0. -/
abbrev condR (i : grid1.Coords) : Prop :=
  (Scalar.cmpi .ne (Scalar.extui (Scalar.cmpi .eq (BitVec.ofNat 32 (i 2).val) 0#32)) 0#32) = 1#1
/-- It holds at the points ≡ 0 (mod 4). -/
theorem hcondR : ∀ t : Fin cfg1.N, condR (grid1.coords t) ↔ t.val % 4 = 0 :=
  (by decide +kernel : ∀ t : Fin grid1.N, condR (grid1.coords t) ↔ t.val % 4 = 0)

/-- The condition of the storing branch: the innermost coordinate is 3. -/
abbrev condS (i : grid1.Coords) : Prop := k1_cond2 i = 1#1
/-- It holds at the points ≡ 3 (mod 4). -/
theorem hcondS : ∀ t : Fin cfg1.N, condS (grid1.coords t) ↔ t.val % 4 = 3 :=
  (by decide +kernel : ∀ t : Fin grid1.N, condS (grid1.coords t) ↔ t.val % 4 = 3)

/-- The three input windows are never idle. -/
theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Off the storing points the output window is idle and is not written back; at them it is live. -/
theorem idle_3 : ∀ t : Fin cfg1.N, ¬condS (grid1.coords t) → cfg1.idle 3 (grid1.coords t) = true := by decide +kernel
theorem noFlush_3 : ∀ t : Fin cfg1.N, ¬condS (grid1.coords t) → (cfg1.win 3).flush t = false := by decide +kernel
theorem live_3 : ∀ t : Fin cfg1.N, condS (grid1.coords t) → cfg1.idle 3 (grid1.coords t) = false := by decide +kernel

/-! ## Whole-tile loads and stores read back -/

theorem off0 : (![0, 0] : Fin 2 → Nat) = fun _ => 0 := funext fun a => by fin_cases a <;> rfl

/-- A load of the whole tile of a buffer holding `X` reads `X`. -/
theorem load_whole {S : Shape} {e : EltTy} (m : Memref sig .tc .vmem S e) (h : m.IsWhole) (X : S.Idx → Elt F e)
    {off : Fin S.rank → Nat} (hz : off = fun _ => 0) (inb : ∀ a, off a + S.size a ≤ S.size a) :
    View.readAt (Elt F) m.view (Rect.unit off S.size inb).toLoadRect (h.unread X) = X := by
  subst hz
  funext x
  show m.view.read (Elt F) (h.unread X) ((Rect.whole S).emb x) = X x
  rw [h.read_unread, Rect.emb_whole_apply]

/-- Every index lies in the whole tile. -/
theorem mem_whole {S : Shape} (y : S.Idx) : y ∈ (Rect.whole S).set := by
  rw [Rect.set_whole]; exact Finset.mem_univ y

/-- What a list of stores whose last is of the whole tile leaves, as a function of the pieces alone, is that store's payload. -/
theorem canon_whole {S : Shape} {e : EltTy} (w : S.Idx → Elt F e) (L : List (View.Piece (Elt F) S e)) :
    View.canon ((⟨Rect.whole S, w⟩ : View.Piece (Elt F) S e) :: L) = w := by
  funext y
  have e := View.canon_cons_emb (Val := Elt F) (Rect.whole S) w L y
  rwa [Rect.emb_whole_apply] at e

/-- A store of the whole tile, made last, leaves its payload, whatever the buffer held and whatever was stored before. -/
theorem store_whole {S : Shape} {e : EltTy} (m : Memref sig .tc .vmem S e) (f : m.view.ty.Contents (Elt F))
    {off : Fin S.rank → Nat} (hz : off = fun _ => 0) (inb : ∀ a, off a + S.size a ≤ S.size a)
    (w : S.Idx → Elt F e) (L : List (View.Piece (Elt F) S e)) :
    m.view.read (Elt F) (m.view.writes (Elt F) f ((⟨Rect.unit off S.size inb, w⟩ : View.Piece (Elt F) S e) :: L)) = w := by
  subst hz
  rw [View.read_writes_eq_canon _ _ _ (fun y => ⟨_, List.mem_cons_self, mem_whole y⟩)]
  exact canon_whole w L

/-- A load of the whole tile after such a store reads the store's payload. -/
theorem readCov_whole {S : Shape} {e : EltTy} (m : Memref sig .tc .vmem S e)
    {off : Fin S.rank → Nat} (hz : off = fun _ => 0) (inb : ∀ a, off a + S.size a ≤ S.size a)
    (w : S.Idx → Elt F e) (L : List (View.Piece (Elt F) S e)) :
    m.view.readCov ((⟨Rect.unit off S.size inb, w⟩ : View.Piece (Elt F) S e) :: L) (Rect.unit off S.size inb).toLoadRect = w := by
  subst hz
  rw [View.readCov_eq_canon_ld _ _ _ (fun y => ⟨_, List.mem_cons_self, mem_whole y⟩)]
  funext x
  show View.canon ((⟨Rect.whole S, w⟩ : View.Piece (Elt F) S e) :: L) ((Rect.whole S).emb x) = w x
  rw [canon_whole, Rect.emb_whole_apply]

/-! ## The body's three runs

One triple per control case, stated over whole memrefs owned at named contents: the inputs' tiles `X`, `Wt`, `Gt`
come back as they were; the three scratch tiles end at the accumulator step; the output's buffer comes back
untouched unless the case stores the output tile. Each run executes the body's skeleton, the two branches decided
by the case's hypotheses, and then reads every buffer's stores back as the payload of the last whole-tile store. -/

set_option maxHeartbeats 4000000 in
/-- The body at a resetting point: whatever the three scratch tiles held, they end at the step of the reset values. -/
theorem run_A (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (hc0 : condR i) (hc1 : ¬condS i)
    (X : Vec F S64x128 .f32) (Wt Gt : Vec F S128x128 .f32) (xi : Vec F S64x128 .f32) (E : Set ℕ) (K : PUnit → sProp 𝕄) :
    iprop(owns (c : Thread nD τ) arg3 fullShare X ∗ owns (c : Thread nD τ) arg4 fullShare Wt ∗ owns (c : Thread nD τ) arg5 fullShare Gt
        ∗ owns (c : Thread nD τ) arg6 fullShare xi
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare X ∗ owns (c : Thread nD τ) arg4 fullShare Wt ∗ owns (c : Thread nD τ) arg5 fullShare Gt
            ∗ owns (c : Thread nD τ) arg6 fullShare xi
            ∗ owns (c : Thread nD τ) arg7 fullShare (accStep accReset X Wt Gt).1 ∗ owns (c : Thread nD τ) arg8 fullShare (accStep accReset X Wt Gt).2.1
            ∗ owns (c : Thread nD τ) arg9 fullShare (accStep accReset X Wt Gt).2.2) -∗ K ⟨⟩))
      ⊢ wp frame (wpE (defs₀ (F := F)) Variants.none c none) E (cc1__main_kernel i arg3 harg3 arg4 harg4 arg5 harg5 arg6 harg6 arg7 harg7 arg8 harg8 arg9 harg9) K := by
  simp only [cc1__main_kernel_eq_skeleton]; unfold cc1__main_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  obtain rfl := harg3.eq_unread hf3; obtain rfl := harg4.eq_unread hf4; obtain rfl := harg5.eq_unread hf5
  obtain rfl := harg6.eq_unread hf6
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    sl_unfold_words
    simp only [store_whole (S := S64x128) _ _ off0, readCov_whole (S := S64x128) _ off0, load_whole (S := S64x128) _ _ _ off0, load_whole (S := S128x128) _ _ _ off0]
    rfl
  isplitl [H8]
  · iexists _; isplitr; swap; · iexact H8
    ipureintro
    sl_unfold_words
    simp only [store_whole (S := S64x128) _ _ off0, readCov_whole (S := S64x128) _ off0, load_whole (S := S64x128) _ _ _ off0, load_whole (S := S128x128) _ _ _ off0]
    rfl
  · iexists _; isplitr; swap; · iexact H9
    ipureintro
    sl_unfold_words
    simp only [store_whole (S := S64x128) _ _ off0, readCov_whole (S := S64x128) _ off0, load_whole (S := S64x128) _ _ _ off0, load_whole (S := S128x128) _ _ _ off0]
    rfl

set_option maxHeartbeats 4000000 in
/-- The body at an accumulating point that neither resets nor stores: the three scratch tiles go from `p` to its step. -/
theorem run_B (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (hc0 : ¬condR i) (hc1 : ¬condS i)
    (X : Vec F S64x128 .f32) (Wt Gt : Vec F S128x128 .f32) (p : Acc F) (xi : Vec F S64x128 .f32) (E : Set ℕ) (K : PUnit → sProp 𝕄) :
    iprop(owns (c : Thread nD τ) arg3 fullShare X ∗ owns (c : Thread nD τ) arg4 fullShare Wt ∗ owns (c : Thread nD τ) arg5 fullShare Gt
        ∗ owns (c : Thread nD τ) arg6 fullShare xi
        ∗ owns (c : Thread nD τ) arg7 fullShare p.1 ∗ owns (c : Thread nD τ) arg8 fullShare p.2.1 ∗ owns (c : Thread nD τ) arg9 fullShare p.2.2
        ∗ (iprop(owns (c : Thread nD τ) arg3 fullShare X ∗ owns (c : Thread nD τ) arg4 fullShare Wt ∗ owns (c : Thread nD τ) arg5 fullShare Gt
            ∗ owns (c : Thread nD τ) arg6 fullShare xi
            ∗ owns (c : Thread nD τ) arg7 fullShare (accStep p X Wt Gt).1 ∗ owns (c : Thread nD τ) arg8 fullShare (accStep p X Wt Gt).2.1
            ∗ owns (c : Thread nD τ) arg9 fullShare (accStep p X Wt Gt).2.2) -∗ K ⟨⟩))
      ⊢ wp frame (wpE (defs₀ (F := F)) Variants.none c none) E (cc1__main_kernel i arg3 harg3 arg4 harg4 arg5 harg5 arg6 harg6 arg7 harg7 arg8 harg8 arg9 harg9) K := by
  simp only [cc1__main_kernel_eq_skeleton]; unfold cc1__main_kernel_skel
  simp only [k1_part1_eq_skeleton]; unfold k1_part1_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg6.eq_unread hf6
  obtain rfl := harg7.eq_unread hf7; obtain rfl := harg8.eq_unread hf8; obtain rfl := harg9.eq_unread hf9
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro
    simp only [store_whole (S := S64x128) _ _ off0, readCov_whole (S := S64x128) _ off0, load_whole (S := S64x128) _ _ _ off0, load_whole (S := S128x128) _ _ _ off0]
    rfl
  isplitl [H8]
  · iexists _; isplitr; swap; · iexact H8
    ipureintro
    simp only [store_whole (S := S64x128) _ _ off0, readCov_whole (S := S64x128) _ off0, load_whole (S := S64x128) _ _ _ off0, load_whole (S := S128x128) _ _ _ off0]
    rfl
  · iexists _; isplitr; swap; · iexact H9
    ipureintro
    simp only [store_whole (S := S64x128) _ _ off0, readCov_whole (S := S64x128) _ off0, load_whole (S := S64x128) _ _ _ off0, load_whole (S := S128x128) _ _ _ off0]
    rfl

set_option maxHeartbeats 4000000 in
/-- The body at a storing point: the scratch tiles go from `p` to its step, and the output tile is stored from the step. -/
theorem run_C (c : Dev nD) (i : grid1.Coords) (arg3 : Memref sig .tc .vmem S64x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S64x128 .f32) (harg8 : arg8.IsWhole) (arg9 : Memref sig .tc .vmem S64x128 .f32) (harg9 : arg9.IsWhole) (hc0 : ¬condR i) (hc1 : condS i)
    (X : Vec F S64x128 .f32) (Wt Gt : Vec F S128x128 .f32) (p : Acc F) (E : Set ℕ) (K : PUnit → sProp 𝕄) :
    iprop(owns (c : Thread nD τ) arg3 fullShare X ∗ owns (c : Thread nD τ) arg4 fullShare Wt ∗ owns (c : Thread nD τ) arg5 fullShare Gt
        ∗ (∃ d, owns (c : Thread nD τ) arg6 fullShare d)
        ∗ owns (c : Thread nD τ) arg7 fullShare p.1 ∗ owns (c : Thread nD τ) arg8 fullShare p.2.1 ∗ owns (c : Thread nD τ) arg9 fullShare p.2.2
        ∗ (iprop(owns (c : Thread nD τ) arg3 fullShare X ∗ owns (c : Thread nD τ) arg4 fullShare Wt ∗ owns (c : Thread nD τ) arg5 fullShare Gt
            ∗ owns (c : Thread nD τ) arg6 fullShare (outTile (accStep p X Wt Gt))
            ∗ owns (c : Thread nD τ) arg7 fullShare (accStep p X Wt Gt).1 ∗ owns (c : Thread nD τ) arg8 fullShare (accStep p X Wt Gt).2.1
            ∗ owns (c : Thread nD τ) arg9 fullShare (accStep p X Wt Gt).2.2) -∗ K ⟨⟩))
      ⊢ wp frame (wpE (defs₀ (F := F)) Variants.none c none) E (cc1__main_kernel i arg3 harg3 arg4 harg4 arg5 harg5 arg6 harg6 arg7 harg7 arg8 harg8 arg9 harg9) K := by
  simp only [cc1__main_kernel_eq_skeleton]; unfold cc1__main_kernel_skel
  simp only [k1_part1_eq_skeleton]; unfold k1_part1_skel
  unfold owns
  iintro ⟨⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  obtain rfl := harg7.eq_unread hf7; obtain rfl := harg8.eq_unread hf8; obtain rfl := harg9.eq_unread hf9
  sl_exec (disch := first | exact hc0 | exact hc1)
  sl_step
  iapply Hk
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; swap; · iexact H6
    ipureintro
    sl_unfold_words
    simp only [store_whole (S := S64x128) _ _ off0, readCov_whole (S := S64x128) _ off0, load_whole (S := S64x128) _ _ _ off0, load_whole (S := S128x128) _ _ _ off0]
    rfl
  isplitl [H7]
  · iexists _; isplitr; swap; · iexact H7
    ipureintro
    sl_unfold_words
    simp only [store_whole (S := S64x128) _ _ off0, readCov_whole (S := S64x128) _ off0, load_whole (S := S64x128) _ _ _ off0, load_whole (S := S128x128) _ _ _ off0]
    rfl
  isplitl [H8]
  · iexists _; isplitr; swap; · iexact H8
    ipureintro
    sl_unfold_words
    simp only [store_whole (S := S64x128) _ _ off0, readCov_whole (S := S64x128) _ off0, load_whole (S := S64x128) _ _ _ off0, load_whole (S := S128x128) _ _ _ off0]
    rfl
  · iexists _; isplitr; swap; · iexact H9
    ipureintro
    sl_unfold_words
    simp only [store_whole (S := S64x128) _ _ off0, readCov_whole (S := S64x128) _ off0, load_whole (S := S64x128) _ _ _ off0, load_whole (S := S128x128) _ _ _ off0]
    rfl

/-! ## The accumulators along the grid walk -/

/-- At a point whose innermost coordinate is 0 the accumulators restart: one step from the reset values. -/
theorem accAt_reset (c : Dev nD) (t : Fin cfg1.N) (h0 : t.val % 4 = 0) :
    accAt V c t.val t.isLt = accStep accReset (xTile V c t) (wTile V c t) (gTile V c t) := by
  obtain ⟨n, hn⟩ := t
  cases n with
  | zero => rfl
  | succ n => exact if_pos h0

/-- At any other point they step from what the point before left. -/
theorem accAt_step (c : Dev nD) (t : Fin cfg1.N) (h0 : ¬t.val % 4 = 0) :
    accAt V c t.val t.isLt
      = accStep (accAt V c (t.val - 1) (Nat.lt_of_le_of_lt (Nat.sub_le _ _) t.isLt)) (xTile V c t) (wTile V c t) (gTile V c t) := by
  obtain ⟨n, hn⟩ := t
  cases n with
  | zero => exact absurd (Nat.zero_mod 4) h0
  | succ n => exact if_neg h0

/-! ## The invariant -/

/-- The invariant with the accumulators' contents forgotten: region 0's staging buffers, the three scratch tiles
    and the generator register, each at something. -/
def anyInv (c : Dev nD) : sProp 𝕄 :=
  iprop(idleStage (F := F) c
    ∗ (∃ d, owns (c : Thread nD τ) scr0 fullShare d)
    ∗ (∃ d, owns (c : Thread nD τ) scr1 fullShare d)
    ∗ (∃ d, owns (c : Thread nD τ) scr2 fullShare d)
    ∗ (∃ r, prngReg c r))

theorem accInv_zero (c : Dev nD) (n : ℕ) (h : n ≤ cfg1.N) (hz : n = 0) : accInv V c n h = Pipeline.ΦA spec1 c := by
  subst hz; rfl

theorem accInv_succ (c : Dev nD) (n : ℕ) (hn : n < cfg1.N) :
    accInv V c (n + 1) hn = iprop(idleStage c
      ∗ owns (c : Thread nD τ) scr0 fullShare (accAt V c n hn).1
      ∗ owns (c : Thread nD τ) scr1 fullShare (accAt V c n hn).2.1
      ∗ owns (c : Thread nD τ) scr2 fullShare (accAt V c n hn).2.2
      ∗ (∃ r, prngReg c r)) := rfl

theorem accInv_pos (c : Dev nD) (n : ℕ) (h : n ≤ cfg1.N) (hz : n ≠ 0) :
    accInv V c n h = iprop(idleStage c
      ∗ owns (c : Thread nD τ) scr0 fullShare (accAt V c (n - 1) (by omega)).1
      ∗ owns (c : Thread nD τ) scr1 fullShare (accAt V c (n - 1) (by omega)).2.1
      ∗ owns (c : Thread nD τ) scr2 fullShare (accAt V c (n - 1) (by omega)).2.2
      ∗ (∃ r, prngReg c r)) := by
  cases n with
  | zero => exact absurd rfl hz
  | succ n => rfl

/-- The scoped rest and the generator register, regrouped: region 0's staging buffers, then the three scratch tiles as
    memrefs owned at something. -/
theorem PhiA_open (c : Dev nD) : (Pipeline.ΦA spec1 c : sProp 𝕄) ⊢ anyInv (F := F) c := by
  unfold Pipeline.ΦA anyInv idleStage; rw [scopedRest1_eq]; simp only [owns_whole]
  iintro ⟨⟨E0, E1, E2, E3, E4, E5, E6, S0, S1, S2⟩, G⟩
  isplitl [E0 E1 E2 E3 E4 E5 E6]
  · isplitl [E0]; · iexact E0
    isplitl [E1]; · iexact E1
    isplitl [E2]; · iexact E2
    isplitl [E3]; · iexact E3
    isplitl [E4]; · iexact E4
    isplitl [E5]; · iexact E5
    iexact E6
  isplitl [S0]; · iexact S0
  isplitl [S1]; · iexact S1
  isplitl [S2]; · iexact S2
  iexact G

theorem PhiA_close (c : Dev nD) : anyInv (F := F) c ⊢ (Pipeline.ΦA spec1 c : sProp 𝕄) := by
  unfold Pipeline.ΦA anyInv idleStage; rw [scopedRest1_eq]; simp only [owns_whole]
  iintro ⟨⟨E0, E1, E2, E3, E4, E5, E6⟩, S0, S1, S2, G⟩
  isplitr [G]
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [S0]; · iexact S0
    isplitl [S1]; · iexact S1
    iexact S2
  iexact G

/-- Before any point the invariant gives the three scratch tiles at something. -/
theorem accInv_any (c : Dev nD) (n : ℕ) (h : n ≤ cfg1.N) : accInv V c n h ⊢ anyInv (F := F) c := by
  cases n with
  | zero => exact PhiA_open c
  | succ n =>
    rw [accInv_succ]; unfold anyInv
    iintro ⟨HI, S0, S1, S2, G⟩
    isplitl [HI]; · iexact HI
    isplitl [S0]; · iexists _; iexact S0
    isplitl [S1]; · iexists _; iexact S1
    isplitl [S2]; · iexists _; iexact S2
    iexact G

/-! ## The proof data, projected -/

theorem A_eq (c : Dev nD) (w : Fin cfg1.W) : (dat1 V c).A w = V c (Pipeline.arrRef spec1 w) := by
  dsimp only [dat1]

theorem Phi_castSucc (c : Dev nD) (t : Fin cfg1.N) :
    (dat1 V c).Φ t.castSucc = accInv V c t.val (Nat.le_of_lt t.isLt) := by
  dsimp only [dat1]; simp only [Fin.coe_castSucc]

theorem Phi_succ (c : Dev nD) (t : Fin cfg1.N) :
    (dat1 V c).Φ t.succ = accInv V c (t.val + 1) t.isLt := rfl

theorem after_0 (c : Dev nD) (t : Fin cfg1.N) : (dat1 V c).after 0 t = iblk1 V c 0 t := by dsimp only [dat1]
theorem after_1 (c : Dev nD) (t : Fin cfg1.N) : (dat1 V c).after 1 t = iblk1 V c 1 t := by dsimp only [dat1]
theorem after_2 (c : Dev nD) (t : Fin cfg1.N) : (dat1 V c).after 2 t = iblk1 V c 2 t := by dsimp only [dat1]
theorem after_3 (c : Dev nD) (t : Fin cfg1.N) : (dat1 V c).after 3 t = outTile (accAt V c t.val t.isLt) := by dsimp only [dat1]

/-- Each input's current staging buffer holds its block at every point, fetched there or not: an input window the body
    leaves in place, never idle, uncut. -/
theorem before_0 (c : Dev nD) (t : Fin cfg1.N) (d) : (dat1 V c).before 0 t d = iblk1 V c 0 t :=
  ((dat1 V c).before_in_eq_fetched 0 rfl (fun _ => rfl) (fun _ _ _ => rfl)
    (fun t => by rw [after_0]; unfold Dat.blockOf iblk1; rw [A_eq]; try rfl) t d).trans
    (by unfold Dat.fetched Dat.blockOf iblk1; rw [A_eq]; try rfl)
theorem before_1 (c : Dev nD) (t : Fin cfg1.N) (d) : (dat1 V c).before 1 t d = iblk1 V c 1 t :=
  ((dat1 V c).before_in_eq_fetched 1 rfl (fun _ => rfl) (fun _ _ _ => rfl)
    (fun t => by rw [after_1]; unfold Dat.blockOf iblk1; rw [A_eq]; try rfl) t d).trans
    (by unfold Dat.fetched Dat.blockOf iblk1; rw [A_eq]; try rfl)
theorem before_2 (c : Dev nD) (t : Fin cfg1.N) (d) : (dat1 V c).before 2 t d = iblk1 V c 2 t :=
  ((dat1 V c).before_in_eq_fetched 2 rfl (fun _ => rfl) (fun _ _ _ => rfl)
    (fun t => by rw [after_2]; unfold Dat.blockOf iblk1; rw [A_eq]; try rfl) t d).trans
    (by unfold Dat.fetched Dat.blockOf iblk1; rw [A_eq]; try rfl)

/-- At a point live for a window the body leaves its buffer at the stated contents. -/
theorem leaves_live (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

/-! ## The body obligation, at a generic point -/

/-- Each window's current staging memref at point `t`, at its literal type, as the pipeline passes it to the body. -/
abbrev ms0 (t : Fin cfg1.N) : Memref sig .tc .vmem S64x128 .f32 := win1_0.stage (cfg1.slots t 0)
abbrev ms1 (t : Fin cfg1.N) : Memref sig .tc .vmem S128x128 .f32 := win1_1.stage (cfg1.slots t 1)
abbrev ms2 (t : Fin cfg1.N) : Memref sig .tc .vmem S128x128 .f32 := win1_2.stage (cfg1.slots t 2)
abbrev ms3 (t : Fin cfg1.N) : Memref sig .tc .vmem S64x128 .f32 := win1_3.stage (cfg1.slots t 3)

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks; the point's innermost coordinate says which of the
    three runs applies. At a resetting point the invariant gives the scratch tiles at something and takes them back at
    the step of the reset values; elsewhere it gives them at what the point before left and takes them back at their
    step. The output's buffer comes back untouched off the storing points and holds the output tile at them. The
    core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [Phi_succ, Phi_castSucc, accInv_succ]
  rw [leaves_live V c 0 t (live_0 t), leaves_live V c 1 t (live_1 t), leaves_live V c 2 t (live_2 t), after_0, after_1, after_2]
  have hN : t.val < 64 := lt_of_lt_of_eq t.isLt (show cfg1.N = 64 from N_1)
  by_cases h0 : t.val % 4 = 0
  · -- a resetting point
    have hR : condR (grid1.coords t) := (hcondR t).mpr h0
    have hS : ¬condS (grid1.coords t) := fun h => by have := (hcondS t).mp h; omega
    rw [Dat.leavesExact_idle (dat1 V c) 3 t (idle_3 t hS) (noFlush_3 t hS), accAt_reset V c t h0]
    iintro ⟨HΦ, Ho, ⟨%d0, H0⟩, ⟨%d1, H1⟩, ⟨%d2, H2⟩, ⟨%d3, H3⟩⟩
    ihave HA := (accInv_any V c _ _) $$ HΦ
    unfold anyInv
    icases HA with ⟨HI, S0, S1, S2, G⟩
    iapply (run_A c (grid1.coords t) _ _ _ _ _ _ _ _ _ _ _ _ _ _ hR hS (xTile V c t) (wTile V c t) (gTile V c t) _ Set.univ _)
    isplitl [H0]; · iexact H0
    isplitl [H1]; · iexact H1
    isplitl [H2]; · iexact H2
    isplitl [H3]; · iexact H3
    isplitl [S0]; · iexact S0
    isplitl [S1]; · iexact S1
    isplitl [S2]; · iexact S2
    iintro ⟨H0, H1, H2, H3, S0, S1, S2⟩
    isplitl [HI S0 S1 S2 G]
    · isplitl [HI]; · iexact HI
      isplitl [S0]; · iexact S0
      isplitl [S1]; · iexact S1
      isplitl [S2]; · iexact S2
      iexact G
    isplitl [Ho]; · iexact Ho
    isplitl [H0]; · iexact H0
    isplitl [H1]; · iexact H1
    isplitl [H2]; · iexact H2
    iexists _; iexact H3
  · have hz : t.val ≠ 0 := fun h => h0 (by rw [h])
    have hR : ¬condR (grid1.coords t) := fun h => h0 ((hcondR t).mp h)
    rw [accInv_pos V c _ _ hz, accAt_step V c t h0]
    by_cases h3 : t.val % 4 = 3
    · -- a storing point
      have hS : condS (grid1.coords t) := (hcondS t).mpr h3
      rw [leaves_live V c 3 t (live_3 t hS), after_3, accAt_step V c t h0]
      iintro ⟨⟨HI, S0, S1, S2, G⟩, Ho, ⟨%d0, H0⟩, ⟨%d1, H1⟩, ⟨%d2, H2⟩, ⟨%d3, H3⟩⟩
      iapply (run_C c (grid1.coords t) _ _ _ _ _ _ _ _ _ _ _ _ _ _ hR hS (xTile V c t) (wTile V c t) (gTile V c t) _ Set.univ _)
      isplitl [H0]; · iexact H0
      isplitl [H1]; · iexact H1
      isplitl [H2]; · iexact H2
      isplitl [H3]; · iexists _; iexact H3
      isplitl [S0]; · iexact S0
      isplitl [S1]; · iexact S1
      isplitl [S2]; · iexact S2
      iintro ⟨H0, H1, H2, H3, S0, S1, S2⟩
      isplitl [HI S0 S1 S2 G]
      · isplitl [HI]; · iexact HI
        isplitl [S0]; · iexact S0
        isplitl [S1]; · iexact S1
        isplitl [S2]; · iexact S2
        iexact G
      isplitl [Ho]; · iexact Ho
      isplitl [H0]; · iexact H0
      isplitl [H1]; · iexact H1
      isplitl [H2]; · iexact H2
      iexact H3
    · -- an accumulating point between
      have hS : ¬condS (grid1.coords t) := fun h => h3 ((hcondS t).mp h)
      rw [Dat.leavesExact_idle (dat1 V c) 3 t (idle_3 t hS) (noFlush_3 t hS)]
      iintro ⟨⟨HI, S0, S1, S2, G⟩, Ho, ⟨%d0, H0⟩, ⟨%d1, H1⟩, ⟨%d2, H2⟩, ⟨%d3, H3⟩⟩
      iapply (run_B c (grid1.coords t) _ _ _ _ _ _ _ _ _ _ _ _ _ _ hR hS (xTile V c t) (wTile V c t) (gTile V c t) _ _ Set.univ _)
      isplitl [H0]; · iexact H0
      isplitl [H1]; · iexact H1
      isplitl [H2]; · iexact H2
      isplitl [H3]; · iexact H3
      isplitl [S0]; · iexact S0
      isplitl [S1]; · iexact S1
      isplitl [S2]; · iexact S2
      iintro ⟨H0, H1, H2, H3, S0, S1, S2⟩
      isplitl [HI S0 S1 S2 G]
      · isplitl [HI]; · iexact HI
        isplitl [S0]; · iexact S0
        isplitl [S1]; · iexact S1
        isplitl [S2]; · iexact S2
        iexact G
      isplitl [Ho]; · iexact Ho
      isplitl [H0]; · iexact H0
      isplitl [H1]; · iexact H1
      isplitl [H2]; · iexact H2
      iexists _; iexact H3

end Accum

/-! ## The three statements -/

/-- Region 1's body obligation at every grid point. -/
theorem body_obligation1 (c : Dev nD) : BodyObligation (dat1 (F := F) V c) (defs₀ (F := F)) Variants.none () Set.univ := by
  intro t
  rw [bigSep_W1, bigSep_W1]
  exact Accum.sound_body V c t

/-- What the region is entered with (the scoped rest at anything) is the invariant before the first point. -/
theorem accInv_in (c : Dev nD) : Pipeline.ΦA spec1 c ⊢ (dat1 (F := F) V c).Φ 0 := by
  show (Pipeline.ΦA spec1 c : sProp 𝕄) ⊢ accInv V c 0 (Nat.zero_le _)
  exact Idealize.SL.BI.Entails.refl _

/-- After the last point the invariant gives the scoped rest back, the accumulators' contents forgotten. -/
theorem accInv_out (c : Dev nD) : (dat1 (F := F) V c).Φ (Fin.last cfg1.N) ⊢ Pipeline.ΦA spec1 c := by
  show accInv V c cfg1.N (Nat.le_refl _) ⊢ (Pipeline.ΦA spec1 c : sProp 𝕄)
  exact (Accum.accInv_any V c _ _).trans (Accum.PhiA_close c)

end Cert.KernelIdeal.Hand

end
-- ==== Proof.MainRun.lean ====
/-
  The run of @main: three host reshapes, the gate-table region, the reduction region, as the segments of one launch.
  Each region is entered from every unscoped buffer held at the valuation before it and left at the one after it.
  Every weakly fair execution terminates with every unscoped buffer at the last valuation; so the arguments end as
  launched and the result buffer ends at the reduction region's output array.
-/
import proofs.«166010_j21912923144501_1_alg».proof.Proof.Valuations
import proofs.«166010_j21912923144501_1_alg».proof.Proof.GateFrame
import proofs.«166010_j21912923144501_1_alg».proof.Proof.AccumFrame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The gate region: entered from every unscoped buffer at W1, left at W2. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The reduction region: entered from every unscoped buffer at W2, left at W3. Its invariant takes the scoped rest
    and the generator register in, carries the accumulators, and gives the scoped rest and the register back. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop((∃ r, prngReg c r) ∗ Pipeline.prefHeld (pcfgs (F := F) 1).pre c (fun _ => fullShare) (adm (F := F) 1).1
          ∗ Pipeline.scopedRest (Pipeline.pin (pcfgs (F := F)) adm 1).spec c) : sProp 𝕄) ⊢ Pipeline.ΦA spec1 c := by
      unfold Pipeline.ΦA
      iintro ⟨Hp, -, Hr⟩
      isplitl [Hr]; · iexact Hr
      iexact Hp
    exact h.trans (accInv_in (V2 m) c)
  hout c := by
    rw [Pipeline.ownSems0_none]
    have h : (Pipeline.ΦA spec1 c : sProp 𝕄) ⊢ iprop((∃ r, prngReg c r) ∗ BI.emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (accInv_out (V2 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of @main terminates, nothing faulting,
    and every final state has every unscoped buffer at the last valuation W3. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME at any F: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run m ρ)

/-- THE RUN WITH THE RESULT NAMED: besides the frame, the result buffer ends at the reduction region's output array. -/
theorem run_result : θ_run defs (onTc (τ := τ) (main (F := F))) ⟨m, fun _ => 0, ρ⟩ (fun r => ∀ c : Dev nD,
      r.2.mem ((c.tc : Thread nD τ).loc main_v4) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v4 (by decide))).trans (W3_result m c),
     (h c _ (mem_uc main_arg0 (by decide))).trans (W3_main_arg0 m c),
     (h c _ (mem_uc main_arg1 (by decide))).trans (W3_main_arg1 m c),
     (h c _ (mem_uc main_arg2 (by decide))).trans (W3_main_arg2 m c),
     (h c _ (mem_uc main_arg3 (by decide))).trans (W3_main_arg3 m c),
     (h c _ (mem_uc main_arg4 (by decide))).trans (W3_main_arg4 m c),
     (h c _ (mem_uc main_arg5 (by decide))).trans (W3_main_arg5 m c),
     (h c _ (mem_uc main_arg6 (by decide))).trans (W3_main_arg6 m c)⟩) (run m ρ)

end Cert.KernelIdeal.Hand

end
-- ==== Proof.Spec.lean ====
/-
  The function both programs compute, over the extended reals, index by index.

  With x : [256, 512], w : [512, 512] and a gate table G : [512, 512] (rows indexed by the reduction
  coordinate i, columns by the output coordinate h), the result at (r, h) is

      sum_i x(r,i) * w(h,i)  +  c * ( sup_i t(r,h,i) - sum_i t(r,h,i) ),     t(r,h,i) = (x(r,i) * |x(r,i)|) * G(i,h),

  where |a| = max a (-a), the supremum over the empty set is -inf, and c is the single-precision constant 0.1 kept
  as its word. The gate table is G(i,h) = |w(h,i)| * S(i,h) for a table S (the sigmoid of the normalised scores).
-/
import Idealize.ShloMosaic.PureOps.Ideal
import Idealize.ShloMosaic.Lib.ValueIdx

noncomputable section

namespace Cert.Spec

open Idealize.ShloMosaic Idealize.ShloMosaic.ValueIdx

abbrev SX : Shape := ⟨2, ![256, 512]⟩
abbrev SW : Shape := ⟨2, ![512, 512]⟩

/-- The absolute value on the extended reals. -/
abbrev eabs (a : EReal) : EReal := max a (-a)

/-- The constant 0.1 as the programs spell it. -/
abbrev c01 : EReal := Ideal.ofBits .f32 0x3DCCCCCD#32

/-- The gate table from the weights and the sigmoid table: G(i,h) = |w(h,i)| * S(i,h). -/
def gate (w S : SW.Idx → EReal) : SW.Idx → EReal := fun j => eabs (w (ix2 (j 1) (j 0))) * S j

/-- One term of the gated reduction. -/
def term (x : SX.Idx → EReal) (G : SW.Idx → EReal) (r : Fin 256) (h : Fin 512) (i : Fin 512) : EReal :=
  (x (ix2 r i) * eabs (x (ix2 r i))) * G (ix2 i h)

/-- The result array. -/
def out (x : SX.Idx → EReal) (w G : SW.Idx → EReal) : SX.Idx → EReal := fun j =>
  (∑ i : Fin 512, x (ix2 (j 0) i) * w (ix2 (j 1) i))
    + c01 * ((Finset.univ.sup fun i : Fin 512 => term x G (j 0) (j 1) i) - ∑ i : Fin 512, term x G (j 0) (j 1) i)

end Cert.Spec

end
-- ==== Proof.AccumValue.lean ====
/-
  The reduction region's output array at the ideal values, as one function of the arrays the region is entered with:
  the tile (b, o) written back at the last reduction step holds, at (r', h'), the matrix product, the supremum and
  the sum over all four reduction tiles, because the accumulators after step i hold them over the tiles 0..i.
-/
import proofs.«166010_j21912923144501_1_alg».proof.Proof.Tiles
import proofs.«166010_j21912923144501_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace AccumValue

/-! ## The payloads read at an index -/

open Cert.Spec (eabs c01)

/-- The outer product tile at (p, k, q): the signed square of x at (p, k) times the gate at (k, q). -/
theorem pay7_apply (X : Vec Ideal S64x128 .f32) (Gt : Vec Ideal S128x128 .f32) (p : Fin 64) (k q : Fin 128) :
    k1_pay7 X Gt (ix3 p k q) = (X (ix2 p k) * eabs (X (ix2 p k))) * Gt (ix2 k q) := by
  unfold k1_pay7
  rw [mulf_apply, shapeCast_self Gt,
    broadcastTo_apply _ broadcasts_S64x128x1_S64x128x128 (ix3 p k q) (ix3 p k (0 : Fin 1))
      (fun a => match a with | ⟨0, _⟩ => rfl | ⟨1, _⟩ => rfl | ⟨2, _⟩ => rfl),
    broadcastTo_apply _ broadcasts_S1x128x128_S64x128x128 (ix3 p k q) (ix3 (0 : Fin 1) k q)
      (fun a => match a with | ⟨0, _⟩ => rfl | ⟨1, _⟩ => rfl | ⟨2, _⟩ => rfl),
    shapeCast_ab_1ab_apply,
    shapeCast_apply _ shapeCasts_S64x128_S64x128x1 (ix3 p k (0 : Fin 1)) (ix2 p k) (by
      rw [Shape.rowMajor_val_two, Shape.rowMajor_val_three]
      show p.val * 128 + k.val = (p.val * 128 + k.val) * 1 + 0
      omega)]
  rfl

/-- The index the lane reduction reads: the reduced index with the lane coordinate put back on axis 1. -/
theorem lift_eq (p : Fin 64) (q k : Fin 128) :
    reduces_S64x128x128_S64x128.lift (ix2 p q) k = ix3 p k q :=
  funext fun a => Fin.ext (match a with | ⟨0, _⟩ => rfl | ⟨1, _⟩ => rfl | ⟨2, _⟩ => rfl)

/-- The sum accumulator's update at (p, q): the old value plus the tile's terms summed over the 128 lanes. -/
theorem pay9_apply (X : Vec Ideal S64x128 .f32) (Gt : Vec Ideal S128x128 .f32) (a : Vec Ideal S64x128 .f32)
    (p : Fin 64) (q : Fin 128) :
    k1_pay9 X Gt a (ix2 p q)
      = a (ix2 p q) + ∑ k : Fin 128, (X (ix2 p k) * eabs (X (ix2 p k))) * Gt (ix2 k q) := by
  unfold k1_pay9
  rw [addf_apply]
  refine congrArg (a (ix2 p q) + ·) ?_
  refine (Ideal.multiReduction_add_single (k1_pay7 X Gt) _ reduces_S64x128x128_S64x128 _ _ (ix2 p q)).trans ?_
  refine Finset.sum_congr rfl fun k _ => ?_
  exact (congrArg (k1_pay7 X Gt) (lift_eq p q k)).trans (pay7_apply X Gt p k q)

/-- The word the maximum starts from is the least extended real. -/
theorem ninf_eq : Ideal.ofBits .f32 0xFF800000#32 = (⊥ : EReal) := by
  simp [Ideal.ofBits, Ideal.ieee]

/-- The maximum accumulator's update at (p, q): the old value against the supremum of the tile's terms over the lanes. -/
theorem pay8_apply (X : Vec Ideal S64x128 .f32) (Gt : Vec Ideal S128x128 .f32) (a : Vec Ideal S64x128 .f32)
    (p : Fin 64) (q : Fin 128) :
    k1_pay8 X Gt a (ix2 p q)
      = max (a (ix2 p q)) (Finset.univ.sup fun k : Fin 128 => (X (ix2 p k) * eabs (X (ix2 p k))) * Gt (ix2 k q)) := by
  unfold k1_pay8
  rw [shapeCast_self, maximumf_apply]
  refine congrArg (max (a (ix2 p q))) ?_
  refine (Ideal.multiReduction_maximumf_single (k1_pay7 X Gt) _ reduces_S64x128x128_S64x128 _ _ (ix2 p q)).trans ?_
  show Finset.fold max (Ideal.ofBits .f32 0xFF800000#32) _ _ = _
  rw [ninf_eq]
  exact Finset.fold_congr (fun k _ => (congrArg (k1_pay7 X Gt) (lift_eq p q k)).trans (pay7_apply X Gt p k q))

/-! ## The matrix product's operand indices: at output (p, q) and contraction coordinate k the left operand is read at
    (p, k) and the right one at (k, q); one lemma per operand axis. -/

theorem lhs_mm_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs_mm_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhs_mm_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhs_mm_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- The product accumulator's update at (p, q): the old value plus the row of x against the row of the weights. -/
theorem pay6_apply (X : Vec Ideal S64x128 .f32) (Wt : Vec Ideal S128x128 .f32) (a : Vec Ideal S64x128 .f32)
    (p : Fin 64) (q : Fin 128) :
    k1_pay6 X Wt a (ix2 p q) = a (ix2 p q) + ∑ k : Fin 128, X (ix2 p k) * Wt (ix2 q k) := by
  unfold k1_pay6
  rw [shapeCast_self, addf_apply]
  refine congrArg (a (ix2 p q) + ·) ?_
  simp only [matmul]
  rw [Ideal.matmul_constant_zero_apply, ← Equiv.sum_comp (ValueIdx.contrEquiv1 dot_S64x128_S128x128_S64x128_1_0_0_1_n_n 128 rfl rfl).symm]
  refine Finset.sum_congr rfl fun k _ => ?_
  have hk := ValueIdx.contrEquiv1_symm_val dot_S64x128_S128x128_S64x128_1_0_0_1_n_n 128 rfl rfl k
  have el : dot_S64x128_S128x128_S64x128_1_0_0_1_n_n.lhsIdx (ix2 p q) ((ValueIdx.contrEquiv1 dot_S64x128_S128x128_S64x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S64x128_S128x128_S64x128_1_0_0_1_n_n.rhsIdx (ix2 p q) ((ValueIdx.contrEquiv1 dot_S64x128_S128x128_S64x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er, truncf_apply, transpose_ix2_apply, truncf_apply]

/-! ## One tile's three contributions, and the accumulators' step -/

/-- One tile's part of the matrix product at (p, q). -/
def prodT (X : Vec Ideal S64x128 .f32) (Wt : Vec Ideal S128x128 .f32) (p : Fin 64) (q : Fin 128) : EReal :=
  ∑ k : Fin 128, X (ix2 p k) * Wt (ix2 q k)
/-- One tile's part of the gated sum at (p, q). -/
def sumT (X : Vec Ideal S64x128 .f32) (Gt : Vec Ideal S128x128 .f32) (p : Fin 64) (q : Fin 128) : EReal :=
  ∑ k : Fin 128, (X (ix2 p k) * eabs (X (ix2 p k))) * Gt (ix2 k q)
/-- One tile's part of the gated supremum at (p, q). -/
def supT (X : Vec Ideal S64x128 .f32) (Gt : Vec Ideal S128x128 .f32) (p : Fin 64) (q : Fin 128) : EReal :=
  Finset.univ.sup fun k : Fin 128 => (X (ix2 p k) * eabs (X (ix2 p k))) * Gt (ix2 k q)

/-- What the first reduction step starts from: zero, zero and the least extended real, everywhere. -/
theorem reset_apply (j : S64x128.Idx) :
    (accReset (F := Ideal)).1 j = 0 ∧ (accReset (F := Ideal)).2.1 j = 0 ∧ (accReset (F := Ideal)).2.2 j = ⊥ := by
  refine ⟨?_, ?_, ?_⟩
  · show (k1_pay3 (F := Ideal)) j = 0
    unfold k1_pay3
    rw [shapeCast_self, broadcast_apply]
    exact Ideal.ofBits_zero_f32
  · show (k1_pay4 (F := Ideal)) j = 0
    unfold k1_pay4
    rw [shapeCast_self, broadcast_apply]
    exact Ideal.ofBits_zero_f32
  · show (k1_pay5 (F := Ideal)) j = ⊥
    unfold k1_pay5
    rw [shapeCast_self, broadcast_apply]
    exact ninf_eq

/-- One reduction step at (p, q): the product and the sum grow by the tile's parts, the maximum takes the tile's supremum in. -/
theorem step_apply (P : Acc Ideal) (X : Vec Ideal S64x128 .f32) (Wt Gt : Vec Ideal S128x128 .f32) (p : Fin 64) (q : Fin 128) :
    (accStep P X Wt Gt).1 (ix2 p q) = P.1 (ix2 p q) + prodT X Wt p q
    ∧ (accStep P X Wt Gt).2.1 (ix2 p q) = P.2.1 (ix2 p q) + sumT X Gt p q
    ∧ (accStep P X Wt Gt).2.2 (ix2 p q) = max (P.2.2 (ix2 p q)) (supT X Gt p q) := by
  refine ⟨pay6_apply X Wt P.1 p q, ?_, pay8_apply X Gt P.2.2 p q⟩
  show k1_pay1 (k1_pay9 X Gt P.2.1) (ix2 p q) = _
  unfold k1_pay1
  rw [shapeCast_self]
  exact pay9_apply X Gt P.2.1 p q

/-- The output tile from the accumulators, at an index: product + 0.1 * (maximum - sum). -/
theorem outTile_apply (P : Acc Ideal) (j : S64x128.Idx) :
    outTile P j = P.1 j + c01 * (P.2.2 j - P.2.1 j) := rfl

/-- Four reduction steps from the start, read at (p, q). -/
theorem chain4_apply (X0 X1 X2 X3 : Vec Ideal S64x128 .f32) (W0 W1 W2 W3 G0 G1 G2 G3 : Vec Ideal S128x128 .f32)
    (p : Fin 64) (q : Fin 128) :
    outTile (accStep (accStep (accStep (accStep accReset X0 W0 G0) X1 W1 G1) X2 W2 G2) X3 W3 G3) (ix2 p q)
      = (prodT X0 W0 p q + prodT X1 W1 p q + prodT X2 W2 p q + prodT X3 W3 p q)
        + c01 * (max (max (max (max ⊥ (supT X0 G0 p q)) (supT X1 G1 p q)) (supT X2 G2 p q)) (supT X3 G3 p q)
                  - (sumT X0 G0 p q + sumT X1 G1 p q + sumT X2 G2 p q + sumT X3 G3 p q)) := by
  obtain ⟨r0, r1, r2⟩ := reset_apply (ix2 p q)
  obtain ⟨a0, b0, c0⟩ := step_apply accReset X0 W0 G0 p q
  obtain ⟨a1, b1, c1⟩ := step_apply (accStep accReset X0 W0 G0) X1 W1 G1 p q
  obtain ⟨a2, b2, c2⟩ := step_apply (accStep (accStep accReset X0 W0 G0) X1 W1 G1) X2 W2 G2 p q
  obtain ⟨a3, b3, c3⟩ := step_apply (accStep (accStep (accStep accReset X0 W0 G0) X1 W1 G1) X2 W2 G2) X3 W3 G3 p q
  rw [outTile_apply, a3, b3, c3, a2, b2, c2, a1, b1, c1, a0, b0, c0, r0, r1, r2, zero_add, zero_add]

/-! ## The reduction coordinate 128 s + k -/

/-- Reduction coordinate k of reduction tile s. -/
abbrev rk (s : Fin 4) (k : Fin 128) : Fin 512 := ⟨128 * s.val + k.val, by have := s.isLt; have := k.isLt; omega⟩

/-- A sum over the 512 reduction coordinates is the sum over the four tiles of the sums over their 128 lanes. -/
theorem sum512 (f : Fin 512 → EReal) : ∑ i, f i = ∑ s : Fin 4, ∑ k : Fin 128, f (rk s k) := by
  have e : ∑ x : Fin 4 × Fin 128, f (finProdFinEquiv x) = ∑ i : Fin 512, f i :=
    Equiv.sum_comp (finProdFinEquiv (m := 4) (n := 128)) f
  rw [← e, Fintype.sum_prod_type]
  refine Finset.sum_congr rfl fun s _ => Finset.sum_congr rfl fun k _ => congrArg f (Fin.ext ?_)
  show k.val + 128 * s.val = 128 * s.val + k.val
  omega

/-- Likewise a supremum: every coordinate is 128 (i / 128) + i % 128. -/
theorem sup512 (f : Fin 512 → EReal) :
    Finset.univ.sup f = Finset.univ.sup fun s : Fin 4 => Finset.univ.sup fun k : Fin 128 => f (rk s k) := by
  apply le_antisymm
  · refine Finset.sup_le fun i _ => ?_
    have hi : i = rk ⟨i.val / 128, by have := i.isLt; omega⟩ ⟨i.val % 128, Nat.mod_lt _ (by decide)⟩ :=
      Fin.ext (by show i.val = 128 * (i.val / 128) + i.val % 128; omega)
    rw [congrArg f hi]
    exact le_trans (Finset.le_sup (f := fun k : Fin 128 => f (rk _ k)) (Finset.mem_univ _))
      (Finset.le_sup (f := fun s : Fin 4 => Finset.univ.sup fun k : Fin 128 => f (rk s k)) (Finset.mem_univ _))
  · exact Finset.sup_le fun s _ => Finset.sup_le fun k _ => Finset.le_sup (Finset.mem_univ _)

/-- A supremum over four tiles is the running maximum from the least element, in the order the steps take it. -/
theorem sup4 (g : Fin 4 → EReal) : Finset.univ.sup g = max (max (max (max ⊥ (g 0)) (g 1)) (g 2)) (g 3) := by
  apply le_antisymm
  · refine Finset.sup_le fun s _ => ?_
    fin_cases s
    · exact le_max_of_le_left (le_max_of_le_left (le_max_of_le_left (le_max_right _ _)))
    · exact le_max_of_le_left (le_max_of_le_left (le_max_right _ _))
    · exact le_max_of_le_left (le_max_right _ _)
    · exact le_max_right _ _
  · exact max_le (max_le (max_le (max_le bot_le (Finset.le_sup (Finset.mem_univ _))) (Finset.le_sup (Finset.mem_univ _)))
      (Finset.le_sup (Finset.mem_univ _))) (Finset.le_sup (Finset.mem_univ _))

/-- Four steps over tiles that are the four reduction tiles of row r of x, row h of the weights and column h of
    the gate table give the specification's value at (r, h). -/
theorem out_point (x : Cert.Spec.SX.Idx → EReal) (w G : Cert.Spec.SW.Idx → EReal)
    (X0 X1 X2 X3 : Vec Ideal S64x128 .f32) (W0 W1 W2 W3 G0 G1 G2 G3 : Vec Ideal S128x128 .f32)
    (r : Fin 256) (h : Fin 512) (p : Fin 64) (q : Fin 128)
    (hX0 : ∀ k, X0 (ix2 p k) = x (ix2 r (rk 0 k))) (hX1 : ∀ k, X1 (ix2 p k) = x (ix2 r (rk 1 k)))
    (hX2 : ∀ k, X2 (ix2 p k) = x (ix2 r (rk 2 k))) (hX3 : ∀ k, X3 (ix2 p k) = x (ix2 r (rk 3 k)))
    (hW0 : ∀ k, W0 (ix2 q k) = w (ix2 h (rk 0 k))) (hW1 : ∀ k, W1 (ix2 q k) = w (ix2 h (rk 1 k)))
    (hW2 : ∀ k, W2 (ix2 q k) = w (ix2 h (rk 2 k))) (hW3 : ∀ k, W3 (ix2 q k) = w (ix2 h (rk 3 k)))
    (hG0 : ∀ k, G0 (ix2 k q) = G (ix2 (rk 0 k) h)) (hG1 : ∀ k, G1 (ix2 k q) = G (ix2 (rk 1 k) h))
    (hG2 : ∀ k, G2 (ix2 k q) = G (ix2 (rk 2 k) h)) (hG3 : ∀ k, G3 (ix2 k q) = G (ix2 (rk 3 k) h)) :
    outTile (accStep (accStep (accStep (accStep accReset X0 W0 G0) X1 W1 G1) X2 W2 G2) X3 W3 G3) (ix2 p q)
      = Cert.Spec.out x w G (ix2 r h) := by
  rw [chain4_apply]
  show _ = (∑ i : Fin 512, x (ix2 r i) * w (ix2 h i))
    + c01 * ((Finset.univ.sup fun i : Fin 512 => Cert.Spec.term x G r h i) - ∑ i : Fin 512, Cert.Spec.term x G r h i)
  rw [sum512 (fun i => x (ix2 r i) * w (ix2 h i)), sum512 (Cert.Spec.term x G r h), sup512 (Cert.Spec.term x G r h),
    Fin.sum_univ_four, Fin.sum_univ_four, sup4]
  unfold prodT sumT supT Cert.Spec.term
  simp only [hX0, hX1, hX2, hX3, hW0, hW1, hW2, hW3, hG0, hG1, hG2, hG3]

/-! ## The walk over the grid -/

/-- The three arrays the region is entered with, at their literal types. -/
abbrev xA (c : Dev nD) : Cert.Spec.SX.Idx → EReal := V c main_arg0
abbrev wA (c : Dev nD) : Cert.Spec.SW.Idx → EReal := V c main_arg1
abbrev gA (c : Dev nD) : Cert.Spec.SW.Idx → EReal := V c main_v3

/-- Where the reduction coordinate is 0 the accumulators restart. -/
theorem accAt_reset (c : Dev nD) (n : ℕ) (hn : n < cfg1.N) (h : n % 4 = 0) :
    accAt V c n hn = accStep accReset (xTile V c ⟨n, hn⟩) (wTile V c ⟨n, hn⟩) (gTile V c ⟨n, hn⟩) := by
  cases n with
  | zero => rfl
  | succ m => rw [accAt, if_pos h]

/-- Elsewhere they step from the point before. -/
theorem accAt_step (c : Dev nD) (n : ℕ) (hn : n + 1 < cfg1.N) (h : ¬(n + 1) % 4 = 0) :
    accAt V c (n + 1) hn
      = accStep (accAt V c n (Nat.lt_of_succ_lt hn)) (xTile V c ⟨n + 1, hn⟩) (wTile V c ⟨n + 1, hn⟩) (gTile V c ⟨n + 1, hn⟩) := by
  rw [accAt, if_neg h]

/-- At the last reduction step of a tile the accumulators are four steps from the start, over the four points of the tile. -/
theorem accAt_flush (c : Dev nD) (m : ℕ) (hm : m % 4 = 0) (h3 : m + 3 < cfg1.N) :
    accAt V c (m + 3) h3
      = accStep (accStep (accStep (accStep accReset
          (xTile V c ⟨m, by omega⟩) (wTile V c ⟨m, by omega⟩) (gTile V c ⟨m, by omega⟩))
          (xTile V c ⟨m + 1, by omega⟩) (wTile V c ⟨m + 1, by omega⟩) (gTile V c ⟨m + 1, by omega⟩))
          (xTile V c ⟨m + 2, by omega⟩) (wTile V c ⟨m + 2, by omega⟩) (gTile V c ⟨m + 2, by omega⟩))
          (xTile V c ⟨m + 3, h3⟩) (wTile V c ⟨m + 3, h3⟩) (gTile V c ⟨m + 3, h3⟩) := by
  rw [accAt_step V c (m + 2) h3 (by omega), accAt_step V c (m + 1) (by omega) (by omega),
    accAt_step V c m (by omega) (by omega), accAt_reset V c m (by omega) hm]

/-- The four windows' index maps, decided over the grid: at point t = 16 b + 4 o + i the x block is (b, i), the weight
    block (o, i), the gate block (i, o) and the output block (b, o). -/
theorem idx_facts1 : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = t.val % 4 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- The x tile at a point reads x at row 64 b + p, column 128 i + k. -/
theorem xTile_apply (c : Dev nD) (t : Fin cfg1.N) (p : Fin 64) (k : Fin 128) (r : Fin 256) (i : Fin 512)
    (hr : r.val = 64 * (t.val / 16) + p.val) (hi : i.val = 128 * (t.val % 4) + k.val) :
    xTile V c t (ix2 p k) = xA V c (ix2 r i) := by
  obtain ⟨e0, e1, -⟩ := idx_facts1 t
  show V c main_arg0 (((cfg1.win 0).blk t).view.emb (ix2 p k)) = V c main_arg0 (ix2 r i)
  refine congrArg _ (funext fun a => Fin.ext ?_)
  match a with
  | ⟨0, _⟩ => show win1_0.index t (0 : Fin 2) * 64 + 1 * p.val = r.val; omega
  | ⟨1, _⟩ => show win1_0.index t (1 : Fin 2) * 128 + 1 * k.val = i.val; omega

/-- The weight tile at a point reads the weights at row 128 o + q, column 128 i + k. -/
theorem wTile_apply (c : Dev nD) (t : Fin cfg1.N) (q k : Fin 128) (h i : Fin 512)
    (hh : h.val = 128 * (t.val / 4 % 4) + q.val) (hi : i.val = 128 * (t.val % 4) + k.val) :
    wTile V c t (ix2 q k) = wA V c (ix2 h i) := by
  obtain ⟨-, -, e2, e3, -⟩ := idx_facts1 t
  show V c main_arg1 (((cfg1.win 1).blk t).view.emb (ix2 q k)) = V c main_arg1 (ix2 h i)
  refine congrArg _ (funext fun a => Fin.ext ?_)
  match a with
  | ⟨0, _⟩ => show win1_1.index t (0 : Fin 2) * 128 + 1 * q.val = h.val; omega
  | ⟨1, _⟩ => show win1_1.index t (1 : Fin 2) * 128 + 1 * k.val = i.val; omega

/-- The gate tile at a point reads the gate table at row 128 i + k, column 128 o + q. -/
theorem gTile_apply (c : Dev nD) (t : Fin cfg1.N) (k q : Fin 128) (i h : Fin 512)
    (hi : i.val = 128 * (t.val % 4) + k.val) (hh : h.val = 128 * (t.val / 4 % 4) + q.val) :
    gTile V c t (ix2 k q) = gA V c (ix2 i h) := by
  obtain ⟨-, -, -, -, e4, e5, -⟩ := idx_facts1 t
  show V c main_v3 (((cfg1.win 2).blk t).view.emb (ix2 k q)) = V c main_v3 (ix2 i h)
  refine congrArg _ (funext fun a => Fin.ext ?_)
  match a with
  | ⟨0, _⟩ => show win1_2.index t (0 : Fin 2) * 128 + 1 * k.val = i.val; omega
  | ⟨1, _⟩ => show win1_2.index t (1 : Fin 2) * 128 + 1 * q.val = h.val; omega

/-- The tiles at reduction step s of the output tile that point m + 3 writes back, read at the coordinates of (r, h):
    reduction tile s of row r of x, of row h of the weights and of column h of the gate table. -/
theorem tiles_at (c : Dev nD) (m : ℕ) (hm : m % 4 = 0) (h3 : m + 3 < cfg1.N) (s : Fin 4) (hs : m + s.val < cfg1.N)
    (p : Fin 64) (q : Fin 128) (r : Fin 256) (h : Fin 512)
    (hr : r.val = 64 * ((m + 3) / 16) + p.val) (hh : h.val = 128 * ((m + 3) / 4 % 4) + q.val) :
    (∀ k, xTile V c ⟨m + s.val, hs⟩ (ix2 p k) = xA V c (ix2 r (rk s k)))
    ∧ (∀ k, wTile V c ⟨m + s.val, hs⟩ (ix2 q k) = wA V c (ix2 h (rk s k)))
    ∧ (∀ k, gTile V c ⟨m + s.val, hs⟩ (ix2 k q) = gA V c (ix2 (rk s k) h)) := by
  have hN : cfg1.N = 64 := N_1
  have hs4 := s.isLt
  refine ⟨fun k => xTile_apply V c ⟨m + s.val, hs⟩ p k r (rk s k) ?_ ?_,
    fun k => wTile_apply V c ⟨m + s.val, hs⟩ q k h (rk s k) ?_ ?_,
    fun k => gTile_apply V c ⟨m + s.val, hs⟩ k q (rk s k) h ?_ ?_⟩
  · show r.val = 64 * ((m + s.val) / 16) + p.val; omega
  · show 128 * s.val + k.val = 128 * ((m + s.val) % 4) + k.val; omega
  · show h.val = 128 * ((m + s.val) / 4 % 4) + q.val; omega
  · show 128 * s.val + k.val = 128 * ((m + s.val) % 4) + k.val; omega
  · show 128 * s.val + k.val = 128 * ((m + s.val) % 4) + k.val; omega
  · show h.val = 128 * ((m + s.val) / 4 % 4) + q.val; omega

/-- What a flushing point writes back is its block of the specification's array. -/
theorem flushed_eq (c : Dev nD) (t : Fin cfg1.N) (hf : (cfg1.win 3).flush t = true) :
    (dat1 (F := Ideal) V c).flushed 3 t
      = ((cfg1.win 3).blk t).view.read (Elt Ideal) (Cert.Spec.out (V c main_arg0) (V c main_arg1) (V c main_v3)) := by
  have hN : cfg1.N = 64 := N_1
  have h3 : t.val % 4 = 3 := (flush1_3 t).mp hf
  obtain ⟨-, -, -, -, -, -, e6, e7⟩ := idx_facts1 t
  funext j
  obtain ⟨p, q, rfl⟩ : ∃ (p : Fin 64) (q : Fin 128), j = ix2 p q := ⟨j 0, j 1, eq_ix2 j⟩
  show outTile (accAt V c t.val t.isLt) (ix2 p q)
    = Cert.Spec.out (xA V c) (wA V c) (gA V c) (((cfg1.win 3).blk t).view.emb (ix2 p q))
  have ht := t.isLt
  have hp := p.isLt
  have hq := q.isLt
  have hrb : 64 * (t.val / 16) + p.val < 256 := by omega
  have hhb : 128 * (t.val / 4 % 4) + q.val < 512 := by omega
  have hemb : ((cfg1.win 3).blk t).view.emb (ix2 p q)
      = ix2 (⟨64 * (t.val / 16) + p.val, hrb⟩ : Fin 256) (⟨128 * (t.val / 4 % 4) + q.val, hhb⟩ : Fin 512) :=
    funext fun a => Fin.ext (by
      match a with
      | ⟨0, _⟩ => show win1_3.index t (0 : Fin 2) * 64 + 1 * p.val = 64 * (t.val / 16) + p.val; omega
      | ⟨1, _⟩ => show win1_3.index t (1 : Fin 2) * 128 + 1 * q.val = 128 * (t.val / 4 % 4) + q.val; omega)
  rw [hemb]
  clear hemb e6 e7 hf
  obtain ⟨tv, htv⟩ := t
  obtain ⟨m, rfl⟩ : ∃ m, tv = m + 3 := ⟨tv - 3, by dsimp only at h3; omega⟩
  have hm : m % 4 = 0 := by dsimp only at h3; omega
  have hm0 : m + (0 : Fin 4).val < cfg1.N := by show m + 0 < cfg1.N; omega
  have hm1 : m + (1 : Fin 4).val < cfg1.N := by show m + 1 < cfg1.N; omega
  have hm2 : m + (2 : Fin 4).val < cfg1.N := by show m + 2 < cfg1.N; omega
  have hm3 : m + (3 : Fin 4).val < cfg1.N := htv
  obtain ⟨x0, w0, g0⟩ := tiles_at V c m hm htv 0 hm0 p q ⟨64 * ((m + 3) / 16) + p.val, hrb⟩ ⟨128 * ((m + 3) / 4 % 4) + q.val, hhb⟩ rfl rfl
  obtain ⟨x1, w1, g1⟩ := tiles_at V c m hm htv 1 hm1 p q ⟨64 * ((m + 3) / 16) + p.val, hrb⟩ ⟨128 * ((m + 3) / 4 % 4) + q.val, hhb⟩ rfl rfl
  obtain ⟨x2, w2, g2⟩ := tiles_at V c m hm htv 2 hm2 p q ⟨64 * ((m + 3) / 16) + p.val, hrb⟩ ⟨128 * ((m + 3) / 4 % 4) + q.val, hhb⟩ rfl rfl
  obtain ⟨x3, w3, g3⟩ := tiles_at V c m hm htv 3 hm3 p q ⟨64 * ((m + 3) / 16) + p.val, hrb⟩ ⟨128 * ((m + 3) / 4 % 4) + q.val, hhb⟩ rfl rfl
  show outTile (accAt V c (m + 3) htv) (ix2 p q) = _
  rw [accAt_flush V c m hm htv]
  exact out_point (xA V c) (wA V c) (gA V c) _ _ _ _ _ _ _ _ _ _ _ _ _ _ p q x0 x1 x2 x3 w0 w1 w2 w3 g0 g1 g2 g3

/-- An index of the output array is in point t's block iff each coordinate is in the block's range on its axis. -/
theorem mem_blk3 (t : Fin cfg1.N) (i : S256x512.Idx) :
    i ∈ ((cfg1.win 3).blk t).view.set
      ↔ ∀ a : Fin 2, win1_3.index t a * S64x128.size a ≤ (i a).val ∧ (i a).val < win1_3.index t a * S64x128.size a + S64x128.size a := by
  show i ∈ ((View.whole main_v4).slice (win1_3.rect t)).set ↔ _
  rw [View.set_slice_whole, Rect.mem_set_unit]
  exact Iff.rfl

/-- Every index (r, h) of the output array is in the block of the flushing point 16 (r / 64) + 4 (h / 128) + 3. -/
theorem cover (i : S256x512.Idx) :
    ∃ t : Fin cfg1.N, (cfg1.win 3).flush t = true ∧ i ∈ ((cfg1.win 3).blk t).view.set := by
  have hN : cfg1.N = 64 := N_1
  have h0 : (i 0).val < 256 := (i 0).isLt
  have h1 : (i 1).val < 512 := (i 1).isLt
  have ht : 16 * ((i 0).val / 64) + 4 * ((i 1).val / 128) + 3 < cfg1.N := by omega
  obtain ⟨-, -, -, -, -, -, e6, e7⟩ := idx_facts1 ⟨16 * ((i 0).val / 64) + 4 * ((i 1).val / 128) + 3, ht⟩
  refine ⟨⟨16 * ((i 0).val / 64) + 4 * ((i 1).val / 128) + 3, ht⟩, (flush1_3 _).mpr ?_, ?_⟩
  · show (16 * ((i 0).val / 64) + 4 * ((i 1).val / 128) + 3) % 4 = 3
    omega
  · rw [mem_blk3]
    intro a
    match a with
    | ⟨0, _⟩ =>
      show win1_3.index ⟨16 * ((i 0).val / 64) + 4 * ((i 1).val / 128) + 3, ht⟩ (0 : Fin 2) * 64 ≤ (i 0).val
        ∧ (i 0).val < win1_3.index ⟨16 * ((i 0).val / 64) + 4 * ((i 1).val / 128) + 3, ht⟩ (0 : Fin 2) * 64 + 64
      rw [e6]
      show (16 * ((i 0).val / 64) + 4 * ((i 1).val / 128) + 3) / 16 * 64 ≤ (i 0).val
        ∧ (i 0).val < (16 * ((i 0).val / 64) + 4 * ((i 1).val / 128) + 3) / 16 * 64 + 64
      omega
    | ⟨1, _⟩ =>
      show win1_3.index ⟨16 * ((i 0).val / 64) + 4 * ((i 1).val / 128) + 3, ht⟩ (1 : Fin 2) * 128 ≤ (i 1).val
        ∧ (i 1).val < win1_3.index ⟨16 * ((i 0).val / 64) + 4 * ((i 1).val / 128) + 3, ht⟩ (1 : Fin 2) * 128 + 128
      rw [e7]
      show (16 * ((i 0).val / 64) + 4 * ((i 1).val / 128) + 3) / 4 % 4 * 128 ≤ (i 1).val
        ∧ (i 1).val < (16 * ((i 0).val / 64) + 4 * ((i 1).val / 128) + 3) / 4 % 4 * 128 + 128
      omega

end AccumValue

/-- The output array after the last write-back is the specification's function of x, the weights and the gate table
    as the region finds them. -/
theorem result_closed (c : Dev nD) :
    (dat1 (F := Ideal) V c).arrAt 3 cfg1.N = Cert.Spec.out (V c main_arg0) (V c main_arg1) (V c main_v3) := by
  exact (dat1 (F := Ideal) V c).arrAt_eq_of_cover 3 (Cert.Spec.out (V c main_arg0) (V c main_arg1) (V c main_v3))
    (fun t hf => AccumValue.flushed_eq V c t hf) AccumValue.cover

end Cert.KernelIdeal.Hand

end
-- ==== Proof.GateValueA.lean ====
/-
  The sigmoid table of the layer-normalised scores, index by index, as one closed form over the extended reals:
  scores(i,h) = sum_k pe(i,k) * aw(h,k) + ab(h); each row's mean and variance over its 512 columns; the normalised
  score times the gain plus the shift; its sigmoid 1 / (1 + exp(-v)). The reference's table read at an index is that
  form, and the kernel's gate payload read at (i, h) is |w(h,i)| times it.
-/
import proofs.«166010_j21912923144501_1_alg».proof.Proof.Spec
import proofs.«166010_j21912923144501_1_alg».proof.Proof.Gen.KernelIdeal.Skeleton
import proofs.«166010_j21912923144501_1_alg».proof.Proof.Gen.ReferenceIdeal.Read
import Idealize.ShloMosaic.PureOps.Ideal.Laws
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.KernelIdeal.Hand.GateTable

open Idealize.ShloMosaic Idealize.ShloMosaic.TcCoe Idealize.ShloMosaic.ValueIdx
open Idealize.SL.Sem
open Cert.KernelIdeal Cert.KernelIdeal.Gen

/-! ## The closed form -/

/-- The number of columns, 512, and the variance's offset, as the programs spell them. -/
abbrev gN : EReal := Ideal.ofBits .f32 0x44000000#32
abbrev gEps : EReal := Ideal.ofBits .f32 0x3727C5AC#32

/-- The scores: pe * awᵀ + ab, at (i, h). -/
def gScore (pe aw : S512x256.Idx → EReal) (ab : S512.Idx → EReal) (i h : Fin 512) : EReal :=
  (∑ k : Fin 256, pe (ix2 i k) * aw (ix2 h k)) + ab (ix1 h)

/-- Row i's mean of the scores. -/
def gMean (pe aw : S512x256.Idx → EReal) (ab : S512.Idx → EReal) (i : Fin 512) : EReal :=
  Ideal.div (∑ h : Fin 512, gScore pe aw ab i h) gN

/-- Row i's variance of the scores. -/
def gVar (pe aw : S512x256.Idx → EReal) (ab : S512.Idx → EReal) (i : Fin 512) : EReal :=
  Ideal.div (∑ h : Fin 512, (gScore pe aw ab i h - gMean pe aw ab i) * (gScore pe aw ab i h - gMean pe aw ab i)) gN

/-- The normalised score with gain and shift. -/
def gPre (pe aw : S512x256.Idx → EReal) (ab lg lb : S512.Idx → EReal) (i h : Fin 512) : EReal :=
  (gScore pe aw ab i h - gMean pe aw ab i) * Ideal.rsqrt (gVar pe aw ab i + gEps) * lg (ix1 h) + lb (ix1 h)

/-- Its sigmoid. -/
def gSig (pe aw : S512x256.Idx → EReal) (ab lg lb : S512.Idx → EReal) (i h : Fin 512) : EReal :=
  Ideal.div 1 (1 + Ideal.exp (-(gPre pe aw ab lg lb i h)))

/-! ## The reference's table is the closed form -/

section Reference
open Cert.ReferenceIdeal.Read

/-- The reference's scores at (i, h). -/
theorem ref_score (x2 x3 : S512x256.Idx → EReal) (x4 : S512.Idx → EReal) (i h : Fin 512) :
    val_main_v4 (F := Ideal) x2 x3 x4 (ix2 i h) = gScore x2 x3 x4 i h := by
  rw [val_main_v4_apply, val_main_v1_apply, val_main_v3_apply, val_main_v2_apply]
  unfold gScore
  have e1 : ∀ k : Fin 256, lidx_main_v1 (ix2 i h) k = ix2 i k := fun k =>
    funext fun a => Fin.ext (by match a with | ⟨0, _⟩ => rfl | ⟨1, _⟩ => rfl)
  have e2 : ∀ k : Fin 256, idx_main_v0 (ridx_main_v1 (ix2 i h) k) = ix2 h k := fun k =>
    funext fun a => Fin.ext (by match a with | ⟨0, _⟩ => rfl | ⟨1, _⟩ => rfl)
  have e3 : idx_main_v2 (idx_main_v3 (ix2 i h)) = ix1 h :=
    funext fun a => Fin.ext (by match a with | ⟨0, _⟩ => rfl)
  simp only [val_main_v0_apply, e1, e2, e3, Ideal.addf_def]

/-- The reference's row mean, kept as a column, at row i. -/
theorem ref_mean (x2 x3 : S512x256.Idx → EReal) (x4 : S512.Idx → EReal) (i : Fin 512) (u : Fin 1) :
    val_main_v8 (F := Ideal) x2 x3 x4 (ix2 i u) = gMean x2 x3 x4 i := by
  rw [val_main_v8_apply, val_main_v6_apply, val_main_v5_apply, val_main_v7_apply, val_main_cst_0_apply, val_main_cst_apply]
  unfold gMean
  have e1 : ∀ k : Fin 512, idx_main_v5 (idx_main_v6 (ix2 i u)) k = ix2 i k := fun k =>
    funext fun a => Fin.ext (by match a with | ⟨0, _⟩ => rfl | ⟨1, _⟩ => rfl)
  simp only [e1, ref_score, Ideal.hostDivf_def, Ideal.ofBits_def, Ideal.ofBits_zero_f32, zero_add]

/-- The reference's row variance, kept as a column, at row i. -/
theorem ref_var (x2 x3 : S512x256.Idx → EReal) (x4 : S512.Idx → EReal) (i : Fin 512) (u : Fin 1) :
    val_main_v15 (F := Ideal) x2 x3 x4 (ix2 i u) = gVar x2 x3 x4 i := by
  rw [val_main_v15_apply, val_main_v13_apply, val_main_v12_apply, val_main_v14_apply, val_main_cst_2_apply, val_main_cst_1_apply]
  unfold gVar
  have e1 : ∀ k : Fin 512, idx_main_v12 (idx_main_v13 (ix2 i u)) k = ix2 i k := fun k =>
    funext fun a => Fin.ext (by match a with | ⟨0, _⟩ => rfl | ⟨1, _⟩ => rfl)
  have e2 : ∀ k : Fin 512, idx_main_v9 (ix2 i k) = ix2 i (0 : Fin 1) := fun k =>
    funext fun a => Fin.ext (by match a with | ⟨0, _⟩ => rfl | ⟨1, _⟩ => rfl)
  simp only [e1, val_main_v11_apply, val_main_v10_apply, val_main_v9_apply, e2, ref_score, ref_mean,
    Ideal.hostDivf_def, Ideal.ofBits_def, Ideal.ofBits_zero_f32, zero_add, Ideal.mulf_def, Ideal.subf_def]

/-- The reference's normalised score with gain and shift at (i, h). -/
theorem ref_pre (x2 x3 : S512x256.Idx → EReal) (x4 x5 x6 : S512.Idx → EReal) (i h : Fin 512) :
    val_main_v28 (F := Ideal) x2 x3 x4 x5 x6 (ix2 i h) = gPre x2 x3 x4 x5 x6 i h := by
  rw [val_main_v28_apply, val_main_v25_apply, val_main_v22_apply, val_main_v17_apply, val_main_v16_apply,
    val_main_v21_apply, val_main_v20_apply, val_main_v19_apply, val_main_v18_apply, val_main_cst_3_apply,
    val_main_v24_apply, val_main_v23_apply, val_main_v27_apply, val_main_v26_apply]
  unfold gPre
  have e1 : idx_main_v16 (ix2 i h) = ix2 i (0 : Fin 1) :=
    funext fun a => Fin.ext (by match a with | ⟨0, _⟩ => rfl | ⟨1, _⟩ => rfl)
  have e2 : idx_main_v21 (ix2 i h) = ix2 i (0 : Fin 1) :=
    funext fun a => Fin.ext (by match a with | ⟨0, _⟩ => rfl | ⟨1, _⟩ => rfl)
  have e3 : idx_main_v23 (idx_main_v24 (ix2 i h)) = ix1 h :=
    funext fun a => Fin.ext (by match a with | ⟨0, _⟩ => rfl)
  have e4 : idx_main_v26 (idx_main_v27 (ix2 i h)) = ix1 h :=
    funext fun a => Fin.ext (by match a with | ⟨0, _⟩ => rfl)
  simp only [e1, e2, e3, e4, ref_score, ref_mean, ref_var, Ideal.hostUnary_rsqrt_def, Ideal.ofBits_def,
    Ideal.mulf_def, Ideal.subf_def, Ideal.addf_def]

/-- The reference's sigmoid table at (i, h). -/
theorem ref_sig (x2 x3 : S512x256.Idx → EReal) (x4 x5 x6 : S512.Idx → EReal) (i h : Fin 512) :
    val_main_v34 (F := Ideal) x2 x3 x4 x5 x6 (ix2 i h) = gSig x2 x3 x4 x5 x6 i h := by
  rw [val_main_v34_apply, val_main_v33_apply, val_main_cst_5_apply, val_main_v32_apply, val_main_v31_apply,
    val_main_cst_4_apply, val_main_v30_apply, val_main_v29_apply, ref_pre]
  unfold gSig
  simp only [Ideal.hostDivf_def, Ideal.ofBits_def, Ideal.ofBits_one_f32, Ideal.addf_def, Ideal.hostUnary_exp_def,
    Ideal.hostNegf_def, Ideal.negf_def]
end Reference

/-! ## The kernel's operations read at an index -/

/-- The matmul's operand indices, axis by axis. -/
theorem gate_lhs_0 (j : S512x512.Idx) (q : dot_S512x256_S256x512_S512x512_1_0_0_1_n_n.contr.Idx) :
    (dot_S512x256_S256x512_S512x512_1_0_0_1_n_n.lhsIdx j q 0).val = (j 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem gate_lhs_1 (j : S512x512.Idx) (q : dot_S512x256_S256x512_S512x512_1_0_0_1_n_n.contr.Idx) :
    (dot_S512x256_S256x512_S512x512_1_0_0_1_n_n.lhsIdx j q 1).val = (q ⟨0, by decide⟩).val :=
  dot_S512x256_S256x512_S512x512_1_0_0_1_n_n.lhsIdx_val_of_single rfl j q
theorem gate_rhs_0 (j : S512x512.Idx) (q : dot_S512x256_S256x512_S512x512_1_0_0_1_n_n.contr.Idx) :
    (dot_S512x256_S256x512_S512x512_1_0_0_1_n_n.rhsIdx j q 0).val = (q ⟨0, by decide⟩).val :=
  dot_S512x256_S256x512_S512x512_1_0_0_1_n_n.rhsIdx_val_of_single rfl j q
theorem gate_rhs_1 (j : S512x512.Idx) (q : dot_S512x256_S256x512_S512x512_1_0_0_1_n_n.contr.Idx) :
    (dot_S512x256_S256x512_S512x512_1_0_0_1_n_n.rhsIdx j q 1).val = (j 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- The matmul into the zero splat, of pe and the transposed aw, at (i, h): the sum over k of pe(i,k) * aw(h,k). -/
theorem gate_matmul_at (pe aw : FVec Ideal S512x256 .f32) (ht : S512x256.Transposes [1, 0] S256x512) (i h : Fin 512) :
    matmul dot_S512x256_S256x512_S512x512_1_0_0_1_n_n (some .fp32) pe (transpose S256x512 [1, 0] aw ht)
        (constant (F := Ideal) S512x512 .f32 0x00000000#32) (ix2 i h)
      = ∑ k : Fin 256, pe (ix2 i k) * aw (ix2 h k) := by
  simp only [matmul]
  rw [Ideal.matmul_constant_zero_apply, ← Equiv.sum_comp (ValueIdx.contrEquiv1 dot_S512x256_S256x512_S512x512_1_0_0_1_n_n 256 rfl rfl).symm]
  refine Finset.sum_congr rfl fun k _ => ?_
  have hk := ValueIdx.contrEquiv1_symm_val dot_S512x256_S256x512_S512x512_1_0_0_1_n_n 256 rfl rfl k
  have el : dot_S512x256_S256x512_S512x512_1_0_0_1_n_n.lhsIdx (ix2 i h) ((ValueIdx.contrEquiv1 dot_S512x256_S256x512_S512x512_1_0_0_1_n_n 256 rfl rfl).symm k) = ix2 i k := funext fun a => Fin.ext (by
    match a with
    | ⟨0, _⟩ => exact gate_lhs_0 _ _
    | ⟨1, _⟩ => exact (gate_lhs_1 _ _).trans hk)
  have er : dot_S512x256_S256x512_S512x512_1_0_0_1_n_n.rhsIdx (ix2 i h) ((ValueIdx.contrEquiv1 dot_S512x256_S256x512_S512x512_1_0_0_1_n_n 256 rfl rfl).symm k) = ix2 k h := funext fun a => Fin.ext (by
    match a with
    | ⟨0, _⟩ => exact (gate_rhs_0 _ _).trans hk
    | ⟨1, _⟩ => exact gate_rhs_1 _ _)
  rw [el, er, transpose_ix2_apply]

/-- A length-512 vector cast to a column reads, at (i, u), the vector at i. -/
theorem gate_colCast_at {α : Type} (v : S512.Idx → α) (hc : S512.ShapeCasts S512x1) (i : Fin 512) (u : Fin 1) :
    shapeCast S512x1 v hc (ix2 i u) = v (ix1 i) :=
  shapeCast_apply v hc _ _ (by
    have hu : u.val = 0 := by omega
    rw [Shape.rowMajor_val_two, Shape.rowMajor_val_one]
    show i.val = i.val * 1 + u.val
    rw [hu, Nat.mul_one, Nat.add_zero])

/-- A column broadcast over 512 columns reads, at (i, h), the column at i. -/
theorem gate_colBcast_at {α : Type} (v : S512x1.Idx → α) (hb : S512x1.Broadcasts S512x512) (i h : Fin 512) :
    broadcastTo S512x512 v hb (ix2 i h) = v (ix2 i (0 : Fin 1)) := by
  refine broadcastTo_apply v hb (ix2 i h) (ix2 i (0 : Fin 1)) fun ax => ?_
  match ax with
  | ⟨0, _⟩ =>
    show i.val = if (512 : Nat) = 1 then 0 else i.val
    rw [if_neg (by decide)]
  | ⟨1, _⟩ => rfl

/-- The sum along a row of a 512x512 table, at row i. -/
theorem gate_rowSum_at (X : FVec Ideal S512x512 .f32) (hr : S512x512.Reduces [1] S512) (hφ : FKind.Formats .f32)
    (hacc : (0x00000000#32 : BitVec 32) = 0x00000000#32) (i : Fin 512) :
    multiReduction .add [1] S512 X 0x00000000#32 hr hφ hacc (ix1 i) = ∑ h : Fin 512, X (ix2 i h) := by
  refine (Ideal.multiReduction_add_single X 0x00000000#32 hr hφ hacc (ix1 i)).trans ?_
  refine Finset.sum_congr rfl fun k _ => congrArg X (funext fun a => Fin.ext ?_)
  match a with
  | ⟨0, _⟩ => rfl
  | ⟨1, _⟩ => rfl

/-- The pointwise operations at an index. -/
theorem gate_rsqrt_at {s : Shape} (a : FVec Ideal s .f32) (j : s.Idx) : rsqrt a j = Ideal.rsqrt (a j) := rfl
theorem gate_logistic_at {s : Shape} (a : FVec Ideal s .f32) (j : s.Idx) : logistic a j = Ideal.logistic (a j) := rfl
theorem gate_absf_at {s : Shape} (a : FVec Ideal s .f32) (j : s.Idx) : absf a j = max (a j) (-(a j)) := rfl

/-! ## The kernel's payload, stage by stage -/

/-- The score table: the matmul of pe with the transposed aw, plus the bias row on every row. -/
def kScore (pe aw : FVec Ideal S512x256 .f32) (ab2 : FVec Ideal S1x512 .f32) : FVec Ideal S512x512 .f32 :=
  addf (matmul dot_S512x256_S256x512_S512x512_1_0_0_1_n_n (some .fp32) pe
      (transpose S256x512 [1, 0] aw Gen.transposes_S512x256_p1_0_S256x512) (constant (F := Ideal) S512x512 .f32 0x00000000#32))
    (broadcastTo S512x512 (shapeCast S1x512 ab2 Gen.shapeCasts_S1x512_S1x512) Gen.broadcasts_S1x512_S512x512)

/-- A table's row means, each row's sum divided by 512, as a column. -/
def kRowMean (X : FVec Ideal S512x512 .f32) : FVec Ideal S512x1 .f32 :=
  divf (shapeCast S512x1 (multiReduction .add [1] S512 X 0x00000000#32 Gen.reduces_S512x512_S512 (.inl rfl) rfl) Gen.shapeCasts_S512_S512x1)
    (broadcast S512x1 (Scalar.ofBits (F := Ideal) .f32 0x44000000#32))

/-- The table with its rows' means taken off. -/
def kCentred (X : FVec Ideal S512x512 .f32) : FVec Ideal S512x512 .f32 :=
  subf X (broadcastTo S512x512 (kRowMean X) Gen.broadcasts_S512x1_S512x512)

/-- The normalised table with gain and shift. -/
def kPre (X : FVec Ideal S512x512 .f32) (lg2 lb2 : FVec Ideal S1x512 .f32) : FVec Ideal S512x512 .f32 :=
  addf (mulf (mulf (kCentred X)
        (broadcastTo S512x512 (rsqrt (addf (kRowMean (mulf (kCentred X) (kCentred X))) (broadcast S512x1 (Scalar.ofBits (F := Ideal) .f32 0x3727C5AC#32))))
          Gen.broadcasts_S512x1_S512x512))
      (broadcastTo S512x512 (shapeCast S1x512 lg2 Gen.shapeCasts_S1x512_S1x512) Gen.broadcasts_S1x512_S512x512))
    (broadcastTo S512x512 (shapeCast S1x512 lb2 Gen.shapeCasts_S1x512_S1x512) Gen.broadcasts_S1x512_S512x512)

/-- The payload is the transposed magnitudes of w times the sigmoid of the normalised scores. -/
theorem gate_pay_stages (pe aw : FVec Ideal S512x256 .f32) (ab2 lg2 lb2 : FVec Ideal S1x512 .f32) (w : FVec Ideal S512x512 .f32) :
    k0_pay1 (F := Ideal) pe aw ab2 lg2 lb2 w
      = mulf (transpose S512x512 [1, 0] (absf w) Gen.transposes_S512x512_p1_0_S512x512) (logistic (kPre (kScore pe aw ab2) lg2 lb2)) := rfl

/-- The stages read at an index. -/
theorem kScore_at (pe aw : FVec Ideal S512x256 .f32) (ab2 : FVec Ideal S1x512 .f32) (ab : S512.Idx → EReal)
    (hab : ∀ h : Fin 512, ab2 (ix2 (0 : Fin 1) h) = ab (ix1 h)) (i h : Fin 512) :
    kScore pe aw ab2 (ix2 i h) = gScore pe aw ab i h := by
  unfold kScore gScore
  rw [addf_apply, gate_matmul_at, broadcastTo_1b_ab_apply, shapeCast_self, hab]

theorem kRowMean_at (X : FVec Ideal S512x512 .f32) (i : Fin 512) (u : Fin 1) :
    kRowMean X (ix2 i u) = Ideal.div (∑ h : Fin 512, X (ix2 i h)) gN := by
  unfold kRowMean
  rw [divf_apply, gate_colCast_at, gate_rowSum_at, broadcast_apply]
  rfl

theorem kCentred_at (X : FVec Ideal S512x512 .f32) (i h : Fin 512) :
    kCentred X (ix2 i h) = X (ix2 i h) - Ideal.div (∑ h' : Fin 512, X (ix2 i h')) gN := by
  unfold kCentred
  rw [subf_apply, gate_colBcast_at, kRowMean_at]

theorem kPre_at (X : FVec Ideal S512x512 .f32) (lg2 lb2 : FVec Ideal S1x512 .f32) (lg lb : S512.Idx → EReal)
    (hlg : ∀ h : Fin 512, lg2 (ix2 (0 : Fin 1) h) = lg (ix1 h))
    (hlb : ∀ h : Fin 512, lb2 (ix2 (0 : Fin 1) h) = lb (ix1 h)) (i h : Fin 512) :
    kPre X lg2 lb2 (ix2 i h)
      = (X (ix2 i h) - Ideal.div (∑ h' : Fin 512, X (ix2 i h')) gN)
          * Ideal.rsqrt (Ideal.div (∑ h' : Fin 512, (X (ix2 i h') - Ideal.div (∑ h'' : Fin 512, X (ix2 i h'')) gN)
              * (X (ix2 i h') - Ideal.div (∑ h'' : Fin 512, X (ix2 i h'')) gN)) gN + gEps)
          * lg (ix1 h) + lb (ix1 h) := by
  unfold kPre
  rw [addf_apply, mulf_apply, mulf_apply, broadcastTo_1b_ab_apply, broadcastTo_1b_ab_apply, shapeCast_self, shapeCast_self,
    hlg, hlb, gate_colBcast_at, gate_rsqrt_at, addf_apply, kRowMean_at, broadcast_apply, kCentred_at]
  simp only [mulf_apply, kCentred_at]
  rfl

/-! ## The kernel's gate payload at an index -/

/-- The payload at (i, h): the magnitude of w(h, i) times the sigmoid table's entry. -/
theorem gate_pay_at (pe aw : FVec Ideal S512x256 .f32) (ab2 lg2 lb2 : FVec Ideal S1x512 .f32) (w : FVec Ideal S512x512 .f32)
    (ab lg lb : S512.Idx → EReal)
    (hab : ∀ h : Fin 512, ab2 (ix2 (0 : Fin 1) h) = ab (ix1 h))
    (hlg : ∀ h : Fin 512, lg2 (ix2 (0 : Fin 1) h) = lg (ix1 h))
    (hlb : ∀ h : Fin 512, lb2 (ix2 (0 : Fin 1) h) = lb (ix1 h)) (i h : Fin 512) :
    k0_pay1 (F := Ideal) pe aw ab2 lg2 lb2 w (ix2 i h) = Cert.Spec.eabs (w (ix2 h i)) * gSig pe aw ab lg lb i h := by
  rw [gate_pay_stages, mulf_apply, transpose_ix2_apply, gate_absf_at, gate_logistic_at, kPre_at _ lg2 lb2 lg lb hlg hlb]
  simp only [kScore_at pe aw ab2 ab hab]
  rfl

end Cert.KernelIdeal.Hand.GateTable

end
-- ==== Proof.GateValue.lean ====
/-
  The gate region's output array at the ideal values: G(i,h) = |w(h,i)| * S(i,h), where S is the sigmoid of the
  layer-normalised scores, the same table the reference computes from the embeddings, the attention weights and
  bias, and the normalisation's gain and shift.
-/
import proofs.«166010_j21912923144501_1_alg».proof.Proof.Valuations
import proofs.«166010_j21912923144501_1_alg».proof.Proof.Spec
import proofs.«166010_j21912923144501_1_alg».proof.Proof.Gen.ReferenceIdeal.Read
import Idealize.ShloMosaic.PureOps.Ideal.Laws
import Idealize.ShloMosaic.Lib.Pipeline.Value
import Idealize.ShloMosaic.Lib.ValueIdx
import Idealize.ShloMosaic.Lib.ValueLayout
import Idealize.ShloMosaic.Lib.StableHlo.Run
import proofs.«166010_j21912923144501_1_alg».proof.Proof.GateValueA

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ)

/-! ## The input blocks are the whole arrays -/

theorem gate_hz : (![0, 0] : Fin 2 → Nat) = fun _ => 0 :=
  funext fun a => by match a with | ⟨0, _⟩ => rfl | ⟨1, _⟩ => rfl

/-- Every window's block index at the one point is zero on both axes. -/
theorem gate_idx0 : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The embeddings' block is the embeddings array as launched. -/
theorem gate_in_pe (c : Dev nD) (t : Fin cfg0.N) :
    (iblk0 (V1 m) c 0 t : Vec Ideal S512x256 .f32) = m ((c : Thread nD τ).loc main_arg2) := by
  funext y
  unfold iblk0
  rw [View.read_apply]
  show V1 m c main_arg2 (((cfg0.win 0).blk t).view.emb y) = _
  rw [V1_main_arg2]
  refine congrArg _ (funext fun a => Fin.ext ?_)
  obtain ⟨⟨e0, e1⟩, -⟩ := gate_idx0 t
  match a with
  | ⟨0, _⟩ => show win0_0.index t (0 : Fin 2) * 512 + 1 * (y 0).val = (y 0).val; rw [e0]; omega
  | ⟨1, _⟩ => show win0_0.index t (1 : Fin 2) * 256 + 1 * (y 1).val = (y 1).val; rw [e1]; omega

/-- The attention weights' block is their array as launched. -/
theorem gate_in_aw (c : Dev nD) (t : Fin cfg0.N) :
    (iblk0 (V1 m) c 1 t : Vec Ideal S512x256 .f32) = m ((c : Thread nD τ).loc main_arg3) := by
  funext y
  unfold iblk0
  rw [View.read_apply]
  show V1 m c main_arg3 (((cfg0.win 1).blk t).view.emb y) = _
  rw [V1_main_arg3]
  refine congrArg _ (funext fun a => Fin.ext ?_)
  obtain ⟨-, ⟨e0, e1⟩, -⟩ := gate_idx0 t
  match a with
  | ⟨0, _⟩ => show win0_1.index t (0 : Fin 2) * 512 + 1 * (y 0).val = (y 0).val; rw [e0]; omega
  | ⟨1, _⟩ => show win0_1.index t (1 : Fin 2) * 256 + 1 * (y 1).val = (y 1).val; rw [e1]; omega

/-- The weights' block is the weights array as launched. -/
theorem gate_in_w (c : Dev nD) (t : Fin cfg0.N) :
    (iblk0 (V1 m) c 5 t : Vec Ideal S512x512 .f32) = m ((c : Thread nD τ).loc main_arg1) := by
  funext y
  unfold iblk0
  rw [View.read_apply]
  show V1 m c main_arg1 (((cfg0.win 5).blk t).view.emb y) = _
  rw [V1_main_arg1]
  refine congrArg _ (funext fun a => Fin.ext ?_)
  obtain ⟨-, -, -, -, -, ⟨e0, e1⟩, -⟩ := gate_idx0 t
  match a with
  | ⟨0, _⟩ => show win0_5.index t (0 : Fin 2) * 512 + 1 * (y 0).val = (y 0).val; rw [e0]; omega
  | ⟨1, _⟩ => show win0_5.index t (1 : Fin 2) * 512 + 1 * (y 1).val = (y 1).val; rw [e1]; omega

/-- The three rows the region finds are the bias, gain and shift vectors, each cast to one row. -/
theorem gate_row_ab (c : Dev nD) :
    (V1 m c main_v0 : S1x512.Idx → EReal) = shapeCast S1x512 (m ((c : Thread nD τ).loc main_arg4)) Gen.shapeCasts_S512_S1x512 := by
  dsimp only [V1, W1, hostOps0]
  after_results
  rfl
theorem gate_row_lg (c : Dev nD) :
    (V1 m c main_v1 : S1x512.Idx → EReal) = shapeCast S1x512 (m ((c : Thread nD τ).loc main_arg5)) Gen.shapeCasts_S512_S1x512 := by
  dsimp only [V1, W1, hostOps0]
  after_results
  rfl
theorem gate_row_lb (c : Dev nD) :
    (V1 m c main_v2 : S1x512.Idx → EReal) = shapeCast S1x512 (m ((c : Thread nD τ).loc main_arg6)) Gen.shapeCasts_S512_S1x512 := by
  dsimp only [V1, W1, hostOps0]
  after_results
  rfl

theorem gate_in_ab (c : Dev nD) (t : Fin cfg0.N) :
    (iblk0 (V1 m) c 2 t : Vec Ideal S1x512 .f32) = shapeCast S1x512 (m ((c : Thread nD τ).loc main_arg4)) Gen.shapeCasts_S512_S1x512 := by
  funext y
  unfold iblk0
  rw [View.read_apply]
  show V1 m c main_v0 (((cfg0.win 2).blk t).view.emb y) = _
  rw [gate_row_ab]
  refine congrArg _ (funext fun a => Fin.ext ?_)
  obtain ⟨-, -, ⟨e0, e1⟩, -⟩ := gate_idx0 t
  match a with
  | ⟨0, _⟩ => show win0_2.index t (0 : Fin 2) * 1 + 1 * (y 0).val = (y 0).val; rw [e0]; omega
  | ⟨1, _⟩ => show win0_2.index t (1 : Fin 2) * 512 + 1 * (y 1).val = (y 1).val; rw [e1]; omega
theorem gate_in_lg (c : Dev nD) (t : Fin cfg0.N) :
    (iblk0 (V1 m) c 3 t : Vec Ideal S1x512 .f32) = shapeCast S1x512 (m ((c : Thread nD τ).loc main_arg5)) Gen.shapeCasts_S512_S1x512 := by
  funext y
  unfold iblk0
  rw [View.read_apply]
  show V1 m c main_v1 (((cfg0.win 3).blk t).view.emb y) = _
  rw [gate_row_lg]
  refine congrArg _ (funext fun a => Fin.ext ?_)
  obtain ⟨-, -, -, ⟨e0, e1⟩, -⟩ := gate_idx0 t
  match a with
  | ⟨0, _⟩ => show win0_3.index t (0 : Fin 2) * 1 + 1 * (y 0).val = (y 0).val; rw [e0]; omega
  | ⟨1, _⟩ => show win0_3.index t (1 : Fin 2) * 512 + 1 * (y 1).val = (y 1).val; rw [e1]; omega
theorem gate_in_lb (c : Dev nD) (t : Fin cfg0.N) :
    (iblk0 (V1 m) c 4 t : Vec Ideal S1x512 .f32) = shapeCast S1x512 (m ((c : Thread nD τ).loc main_arg6)) Gen.shapeCasts_S512_S1x512 := by
  funext y
  unfold iblk0
  rw [View.read_apply]
  show V1 m c main_v2 (((cfg0.win 4).blk t).view.emb y) = _
  rw [gate_row_lb]
  refine congrArg _ (funext fun a => Fin.ext ?_)
  obtain ⟨-, -, -, -, ⟨e0, e1⟩, -⟩ := gate_idx0 t
  match a with
  | ⟨0, _⟩ => show win0_4.index t (0 : Fin 2) * 1 + 1 * (y 0).val = (y 0).val; rw [e0]; omega
  | ⟨1, _⟩ => show win0_4.index t (1 : Fin 2) * 512 + 1 * (y 1).val = (y 1).val; rw [e1]; omega

/-! ## The payload of the whole arrays is the gate table -/

/-- The payload of the embeddings, the attention weights, the three rows and the weights is, as a table,
    G(i,h) = |w(h,i)| * S(i,h) with S the reference's sigmoid table. -/
theorem gate_tile_eq (pe aw : FVec Ideal S512x256 .f32) (ab lg lb : S512.Idx → EReal) (w : FVec Ideal S512x512 .f32) :
    k0_pay1 (F := Ideal) pe aw (shapeCast S1x512 ab Gen.shapeCasts_S512_S1x512) (shapeCast S1x512 lg Gen.shapeCasts_S512_S1x512)
        (shapeCast S1x512 lb Gen.shapeCasts_S512_S1x512) w
      = Cert.Spec.gate w (Cert.ReferenceIdeal.Read.val_main_v34 (F := Ideal) pe aw ab lg lb) := by
  funext y
  obtain ⟨p, q, rfl⟩ : ∃ (p q : Fin 512), y = ix2 p q := ⟨y 0, y 1, eq_ix2 y⟩
  rw [GateTable.gate_pay_at pe aw _ _ _ w ab lg lb (fun h => shapeCast_a_1a_apply ab _ 0 h)
    (fun h => shapeCast_a_1a_apply lg _ 0 h) (fun h => shapeCast_a_1a_apply lb _ 0 h) p q]
  unfold Cert.Spec.gate
  rw [GateTable.ref_sig]

/-! ## From the one block to the array -/

/-- The one point's block of the output window is the whole array: a table read through it is the table. -/
theorem gate_blk_read (t : Fin cfg0.N) (G : S512x512.Idx → EReal) :
    (cfg0.win 6).cut (grid0.coords t) G = ((cfg0.win 6).blk t).view.read (Elt Ideal) G := by
  funext j
  show G ((cfg0.win 6).xinj (grid0.coords t) j) = G (((cfg0.win 6).blk t).view.emb j)
  refine congrArg G (funext fun a => Fin.ext ?_)
  obtain ⟨-, -, -, -, -, -, e0, e1⟩ := gate_idx0 t
  match a with
  | ⟨0, _⟩ => show (j 0).val = win0_6.index t (0 : Fin 2) * 512 + 1 * (j 0).val; rw [e0]; omega
  | ⟨1, _⟩ => show (j 1).val = win0_6.index t (1 : Fin 2) * 512 + 1 * (j 1).val; rw [e1]; omega

/-- What the one point writes back is the gate table, read through the point's block. -/
theorem gate_flushed (c : Dev nD) (t : Fin cfg0.N) :
    (dat0 (F := Ideal) (V1 m) c).flushed 6 t
      = ((cfg0.win 6).blk t).view.read (Elt Ideal) (Cert.Spec.gate (m ((c : Thread nD τ).loc main_arg1))
          (Cert.ReferenceIdeal.Read.val_main_v34 (F := Ideal) (m ((c : Thread nD τ).loc main_arg2)) (m ((c : Thread nD τ).loc main_arg3))
            (m ((c : Thread nD τ).loc main_arg4)) (m ((c : Thread nD τ).loc main_arg5)) (m ((c : Thread nD τ).loc main_arg6)))) := by
  show (cfg0.win 6).cut (grid0.coords t) ((dat0 (V1 m) c).after 6 t) = _
  rw [show (dat0 (V1 m) c).after 6 t = gateTile (iblk0 (V1 m) c 0 t) (iblk0 (V1 m) c 1 t) (iblk0 (V1 m) c 2 t)
    (iblk0 (V1 m) c 3 t) (iblk0 (V1 m) c 4 t) (iblk0 (V1 m) c 5 t) from by dsimp only [dat0]]
  unfold gateTile
  rw [View.canon_unit_zero gate_hz]
  simp only [View.ld_unit_zero (S := S512x256) gate_hz, View.ld_unit_zero (S := S1x512) gate_hz, View.ld_unit_zero (S := S512x512) gate_hz]
  rw [gate_in_pe, gate_in_aw, gate_in_ab, gate_in_lg, gate_in_lb, gate_in_w, gate_tile_eq]
  exact gate_blk_read t _

/-- Every index of the gate array lies in the one point's block. -/
theorem gate_mem_blk (t : Fin cfg0.N) (i : S512x512.Idx) : i ∈ ((cfg0.win 6).blk t).view.set := by
  show i ∈ ((View.whole main_v3).slice (win0_6.rect t)).set
  rw [View.set_slice_whole, Rect.mem_set_unit]
  obtain ⟨-, -, -, -, -, -, e0, e1⟩ := gate_idx0 t
  have h0 : (i 0).val < 512 := (i 0).isLt
  have h1 : (i 1).val < 512 := (i 1).isLt
  intro a
  match a with
  | ⟨0, _⟩ => show win0_6.index t (0 : Fin 2) * 512 ≤ (i 0).val ∧ (i 0).val < win0_6.index t (0 : Fin 2) * 512 + 512; rw [e0]; omega
  | ⟨1, _⟩ => show win0_6.index t (1 : Fin 2) * 512 ≤ (i 1).val ∧ (i 1).val < win0_6.index t (1 : Fin 2) * 512 + 512; rw [e1]; omega

/-- The gate table after the region's write-back is the specification's gate of the weights and the reference's
    sigmoid table of the launch arguments. -/
theorem gate_closed (c : Dev nD) :
    (dat0 (F := Ideal) (V1 m) c).arrAt 6 cfg0.N
      = Cert.Spec.gate (m ((c : Thread nD τ).loc main_arg1))
          (Cert.ReferenceIdeal.Read.val_main_v34 (F := Ideal) (m ((c : Thread nD τ).loc main_arg2)) (m ((c : Thread nD τ).loc main_arg3))
            (m ((c : Thread nD τ).loc main_arg4)) (m ((c : Thread nD τ).loc main_arg5)) (m ((c : Thread nD τ).loc main_arg6))) := by
  exact (dat0 (F := Ideal) (V1 m) c).arrAt_eq_of_cover 6 _ (fun t _ => gate_flushed m c t)
    (fun i => ⟨t0_0, flush0_6 t0_0, gate_mem_blk t0_0 i⟩)

end Cert.KernelIdeal.Hand

end
-- ==== Proof.RefValue.lean ====
/-
  The reference's result at the ideal values is the specification's function of x, the weights and the gate of the
  weights and the reference's own sigmoid table: |x*w| * (S*x) = (x*|x|) * (|w|*S) entry by entry when x and w are real.
-/
import proofs.«166010_j21912923144501_1_alg».proof.Proof.Spec
import proofs.«166010_j21912923144501_1_alg».proof.Proof.Gen.ReferenceIdeal.Run
import proofs.«166010_j21912923144501_1_alg».proof.Proof.Gen.ReferenceIdeal.Read
import Idealize.ShloMosaic.PureOps.Ideal.Laws
import Idealize.ShloMosaic.Lib.ValueIdx

set_option maxRecDepth 16384

noncomputable section

namespace Cert.ReferenceIdeal.RefValue

open Idealize.ShloMosaic Idealize.ShloMosaic.ValueIdx Idealize.SL.Sem
open Cert.ReferenceIdeal Cert.ReferenceIdeal.Gen Cert.ReferenceIdeal.Read

/-! ## The algebra of one entry -/

/-- On the reals inside the extended reals, max a (-a) is the coercion of the real absolute value. -/
theorem eabs_coe (a : ℝ) : max (a : EReal) (-(a : EReal)) = ((|a| : ℝ) : EReal) := by
  rw [← EReal.coe_neg, ← EReal.coe_strictMono.monotone.map_max, abs_eq_max_neg]

/-- |a * b| = |a| * |b| for real a and b, read on the extended reals. -/
theorem eabs_mul (a b : ℝ) :
    max ((a : EReal) * (b : EReal)) (-((a : EReal) * (b : EReal))) = max (a : EReal) (-(a : EReal)) * max (b : EReal) (-(b : EReal)) := by
  rw [← EReal.coe_mul, eabs_coe, eabs_coe, eabs_coe, abs_mul, EReal.coe_mul]

/-- One entry: |a * b| * (S * a) = (a * |a|) * (|b| * S), for real a and b and any extended real S. -/
theorem entry_alg (a b : ℝ) (S : EReal) :
    max ((a : EReal) * (b : EReal)) (-((a : EReal) * (b : EReal))) * (S * (a : EReal))
      = ((a : EReal) * max (a : EReal) (-(a : EReal))) * (max (b : EReal) (-(b : EReal)) * S) := by
  rw [eabs_mul]
  ac_rfl

/-! ## The reference's entry before the reductions -/

/-- The product the reference reduces, at (r, i, h): |x(r,i) * w(h,i)| * (S(i,h) * x(r,i)). -/
theorem aw_apply (x0 : (⟨S256x512, .f32⟩ : BufTy).Contents (Elt Ideal)) (x1 : (⟨S512x512, .f32⟩ : BufTy).Contents (Elt Ideal))
    (x2 x3 : (⟨S512x256, .f32⟩ : BufTy).Contents (Elt Ideal)) (x4 x5 x6 : (⟨S512, .f32⟩ : BufTy).Contents (Elt Ideal))
    (r : Fin 256) (i h : Fin 512) :
    val_main_v46 (F := Ideal) x0 x1 x2 x3 x4 x5 x6 (ix3 r i h)
      = max (x0 (ix2 r i) * x1 (ix2 h i)) (-(x0 (ix2 r i) * x1 (ix2 h i)))
          * (val_main_v34 (F := Ideal) x2 x3 x4 x5 x6 (ix2 i h) * x0 (ix2 r i)) := by
  have e1 : idx_main_v35 (idx_main_v38 (ix3 r i h)) = ix2 r i :=
    funext fun a => Fin.ext (by match a with | ⟨0, _⟩ => rfl | ⟨1, _⟩ => rfl)
  have e2 : idx_main_v36 (idx_main_v37 (idx_main_v39 (ix3 r i h))) = ix2 h i :=
    funext fun a => Fin.ext (by match a with | ⟨0, _⟩ => rfl | ⟨1, _⟩ => rfl)
  have e3 : idx_main_v42 (idx_main_v43 (ix3 r i h)) = ix2 i h :=
    funext fun a => Fin.ext (by match a with | ⟨0, _⟩ => rfl | ⟨1, _⟩ => rfl)
  rw [val_main_v46_apply, val_main_v41_apply, val_main_v40_apply, val_main_v38_apply, val_main_v35_apply, val_main_v39_apply,
    val_main_v37_apply, val_main_v36_apply, val_main_v45_apply, val_main_v43_apply, val_main_v42_apply, val_main_v44_apply,
    val_main_v35_apply, e1, e2, e3]
  rfl

/-- For real x and w the reduced product is the specification's term with the gate of the weights and the sigmoid table. -/
theorem aw_term (x0 : (⟨S256x512, .f32⟩ : BufTy).Contents (Elt Ideal)) (x1 : (⟨S512x512, .f32⟩ : BufTy).Contents (Elt Ideal))
    (x2 x3 : (⟨S512x256, .f32⟩ : BufTy).Contents (Elt Ideal)) (x4 x5 x6 : (⟨S512, .f32⟩ : BufTy).Contents (Elt Ideal))
    (hx : ∀ j, ∃ r : ℝ, x0 j = (r : EReal)) (hw : ∀ j, ∃ r : ℝ, x1 j = (r : EReal)) (r : Fin 256) (i h : Fin 512) :
    val_main_v46 (F := Ideal) x0 x1 x2 x3 x4 x5 x6 (ix3 r i h)
      = Cert.Spec.term x0 (Cert.Spec.gate x1 (val_main_v34 (F := Ideal) x2 x3 x4 x5 x6)) r h i := by
  rw [aw_apply]
  obtain ⟨a, ha⟩ := hx (ix2 r i)
  obtain ⟨b, hb⟩ := hw (ix2 h i)
  show _ = (x0 (ix2 r i) * max (x0 (ix2 r i)) (-(x0 (ix2 r i))))
      * (max (x1 (ix2 h i)) (-(x1 (ix2 h i))) * val_main_v34 (F := Ideal) x2 x3 x4 x5 x6 (ix2 i h))
  rw [ha, hb]
  exact entry_alg a b _

/-! ## The two reductions and the product of matrices, at (r, h) -/

/-- The reduced index (r, h) with k put back on the middle axis is (r, k, h). -/
theorem lift_ix3 (hR : S256x512x512.Reduces [1] S256x512) (r : Fin 256) (h : Fin 512) (k : Fin (S256x512x512.size 1)) :
    hR.lift (ix2 r h) k = ix3 r (⟨k.val, k.isLt⟩ : Fin 512) h := by
  funext c; apply Fin.ext
  fin_cases c <;> rfl

/-- The word 0xFF800000 is the least extended real. -/
theorem ofBits_neg_inf : Ideal.ofBits .f32 0xFF800000#32 = (⊥ : EReal) := by simp [Ideal.ofBits, Ideal.ieee]

/-- The maximum over the middle axis, from the least element, is the supremum of the 512 entries. -/
theorem max_apply (x0 : (⟨S256x512, .f32⟩ : BufTy).Contents (Elt Ideal)) (x1 : (⟨S512x512, .f32⟩ : BufTy).Contents (Elt Ideal))
    (x2 x3 : (⟨S512x256, .f32⟩ : BufTy).Contents (Elt Ideal)) (x4 x5 x6 : (⟨S512, .f32⟩ : BufTy).Contents (Elt Ideal))
    (r : Fin 256) (h : Fin 512) :
    val_main_v47 (F := Ideal) x0 x1 x2 x3 x4 x5 x6 (ix2 r h)
      = Finset.univ.sup fun i : Fin 512 => val_main_v46 (F := Ideal) x0 x1 x2 x3 x4 x5 x6 (ix3 r i h) := by
  unfold val_main_v47
  generalize val_main_v46 (F := Ideal) x0 x1 x2 x3 x4 x5 x6 = y
  have hR : S256x512x512.Reduces [1] S256x512 := by decide
  rw [Host.reduce_eq_fold_single (FloatOps.maximumf (F := Ideal) (φ := .f32)) y (val_main_cst_6 (F := Ideal))
    reducesTo_S256x512x512_S256x512_d1 hR h_S_ (ix2 r h)]
  have hf : (y ∘ hR.lift (ix2 r h)) = fun k : Fin 512 => y (ix3 r k h) :=
    funext fun k => congrArg y (lift_ix3 hR r h k)
  rw [hf]
  show Finset.fold max (Ideal.ofBits .f32 0xFF800000#32) (fun k : Fin 512 => y (ix3 r k h)) Finset.univ = _
  rw [ofBits_neg_inf]
  rfl

/-- The sum over the middle axis, from zero, is the sum of the 512 entries. -/
theorem sum_apply (x0 : (⟨S256x512, .f32⟩ : BufTy).Contents (Elt Ideal)) (x1 : (⟨S512x512, .f32⟩ : BufTy).Contents (Elt Ideal))
    (x2 x3 : (⟨S512x256, .f32⟩ : BufTy).Contents (Elt Ideal)) (x4 x5 x6 : (⟨S512, .f32⟩ : BufTy).Contents (Elt Ideal))
    (r : Fin 256) (h : Fin 512) :
    val_main_v48 (F := Ideal) x0 x1 x2 x3 x4 x5 x6 (ix2 r h)
      = ∑ i : Fin 512, val_main_v46 (F := Ideal) x0 x1 x2 x3 x4 x5 x6 (ix3 r i h) := by
  rw [val_main_v48_apply, val_main_cst_7_apply]
  show Ideal.ofBits .f32 0x00000000#32 + _ = _
  rw [Ideal.ofBits_zero_f32, zero_add]
  refine Finset.sum_congr rfl fun k _ => ?_
  exact congrArg _ (funext fun a => Fin.ext (by match a with | ⟨0, _⟩ => rfl | ⟨1, _⟩ => rfl | ⟨2, _⟩ => rfl))

/-- The product of x with the transposed weights at (r, h) is the sum over i of x(r,i) * w(h,i). -/
theorem dot_apply (x0 : (⟨S256x512, .f32⟩ : BufTy).Contents (Elt Ideal)) (x1 : (⟨S512x512, .f32⟩ : BufTy).Contents (Elt Ideal))
    (r : Fin 256) (h : Fin 512) :
    val_main_v51 (F := Ideal) x0 x1 (ix2 r h) = ∑ i : Fin 512, x0 (ix2 r i) * x1 (ix2 h i) := by
  rw [val_main_v51_apply]
  refine Finset.sum_congr rfl fun k _ => ?_
  rw [val_main_v50_apply]
  have el : lidx_main_v51 (ix2 r h) k = ix2 r k :=
    funext fun a => Fin.ext (by match a with | ⟨0, _⟩ => rfl | ⟨1, _⟩ => rfl)
  have er : idx_main_v50 (ridx_main_v51 (ix2 r h) k) = ix2 h k :=
    funext fun a => Fin.ext (by match a with | ⟨0, _⟩ => rfl | ⟨1, _⟩ => rfl)
  rw [el, er]

/-! ## The result -/

/-- The reference's result is the specification's function. -/
theorem ref_closed (x0 : (⟨S256x512, .f32⟩ : BufTy).Contents (Elt Ideal)) (x1 : (⟨S512x512, .f32⟩ : BufTy).Contents (Elt Ideal))
    (x2 x3 : (⟨S512x256, .f32⟩ : BufTy).Contents (Elt Ideal)) (x4 x5 x6 : (⟨S512, .f32⟩ : BufTy).Contents (Elt Ideal))
    (hx : ∀ j, ∃ r : ℝ, x0 j = (r : EReal)) (hw : ∀ j, ∃ r : ℝ, x1 j = (r : EReal)) :
    val_main_v54 (F := Ideal) x0 x1 x2 x3 x4 x5 x6
      = Cert.Spec.out x0 x1 (Cert.Spec.gate x1 (val_main_v34 (F := Ideal) x2 x3 x4 x5 x6)) := by
  funext j
  obtain ⟨r, h, rfl⟩ : ∃ (r : Fin 256) (h : Fin 512), j = ix2 r h := ⟨j 0, j 1, eq_ix2 j⟩
  rw [val_main_v54_apply, val_main_v53_apply, val_main_v52_apply, val_main_cst_8_apply, val_main_v49_apply,
    dot_apply, max_apply, sum_apply]
  simp only [aw_term x0 x1 x2 x3 x4 x5 x6 hx hw]
  rfl

end Cert.ReferenceIdeal.RefValue

end
-- ==== Proof.Finite.lean ====
/-
  Under the precondition every entry of x and of the weights is a real number (neither infinity).
-/
import proofs.«166010_j21912923144501_1_alg».proof.Defs
import proofs.«166010_j21912923144501_1_alg».proof.Proof.Gen.Pre_finite_inputs
import proofs.«166010_j21912923144501_1_alg».proof.Proof.Gen.KernelIdeal
import Idealize.ShloMosaic.Lib.ReduceAll

noncomputable section

namespace Cert.Proof.Finite

open Idealize.ShloMosaic Idealize.SL.Sem

/-- The rank-0 shape has exactly one index. -/
instance subsingleton_scalar_idx : Subsingleton Cert.Pre_finite_inputs.S_.Idx :=
  ⟨fun _ _ => funext fun d => d.elim0⟩

/-- The pattern 0x7F800000 denotes +∞. -/
theorem inf_word : Ideal.ofBits .f32 0x7F800000#32 = (⊤ : EReal) := by
  simp [Ideal.ofBits, Ideal.ieee]

/-- An extended real whose absolute value max x (-x) lies strictly below +∞ is a real number:
    at -∞ and at +∞ the absolute value is +∞ itself. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element fact: the ordered comparison |x| < +∞ answering 1 makes x a real number. -/
theorem real_of_cmp (x : Ideal .f32)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  apply real_of_abs_lt_top
  have h' : BitVec.ofBool (decide (max x (-x) < Ideal.ofBits .f32 0x7F800000#32)) = 1#1 := h
  rw [inf_word] at h'
  by_contra hn
  rw [decide_eq_false hn] at h'
  exact absurd h' (by decide)

/-- One conjunct of the precondition, over any shape: if the all-reduction by "and" of the array of
    comparisons |x i| < +∞ (the bound a broadcast scalar +∞) is 1, every entry of x is real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (k : Cert.Pre_finite_inputs.S_.Idx)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr h0 k = 1#1)
    (j : s.Idx) : ∃ r : ℝ, x j = (r : EReal) :=
  real_of_cmp (x j) (Host.reduce_andi_all _ _ hr h0 k e j)

/-- The first two conjuncts of the printed precondition, read off its chain of "and"s. -/
theorem pre_split (m : (ℓ : Loc Cert.KernelIdeal.nD Cert.KernelIdeal.τ Cert.KernelIdeal.sig) → Buf (Elt Ideal) ℓ)
    (h : Cert.Pre_KernelIdeal m) (c : Dev Cert.KernelIdeal.nD) :
    (∀ j : Cert.KernelIdeal.S256x512.Idx, ∃ r : ℝ,
        m ((c.tc : Thread Cert.KernelIdeal.nD Cert.KernelIdeal.τ).loc Cert.KernelIdeal.main_arg0) j = (r : EReal))
    ∧ (∀ j : Cert.KernelIdeal.S512x512.Idx, ∃ r : ℝ,
        m ((c.tc : Thread Cert.KernelIdeal.nD Cert.KernelIdeal.τ).loc Cert.KernelIdeal.main_arg1) j = (r : EReal)) := by
  have e := congrFun (h c) (fun a => a.elim0)
  dsimp only [Cert.Pre_finite_inputs.fn, Cert.Pre_finite_inputs.fn_part1, andi] at e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e0, e1⟩ := IntOp.andi_eq_one.1 e
  exact ⟨fun j => real_of_all _ _ _ _ _ e0 j, fun j => real_of_all _ _ _ _ _ e1 j⟩

/-- Every entry of x is real. -/
theorem real_x (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S256x512.Idx) :
    ∃ r : ℝ, m ((c.tc : Thread Cert.KernelIdeal.nD Cert.KernelIdeal.τ).loc Cert.KernelIdeal.main_arg0) j = (r : EReal) := by
  exact (pre_split m h c).1 j

/-- Every entry of the weights is real. -/
theorem real_w (m : (ℓ : Loc Cert.KernelIdeal.nD Cert.KernelIdeal.τ Cert.KernelIdeal.sig) → Buf (Elt Ideal) ℓ)
    (h : Cert.Pre_KernelIdeal m) (c : Dev Cert.KernelIdeal.nD) (j : Cert.KernelIdeal.S512x512.Idx) :
    ∃ r : ℝ, m ((c.tc : Thread Cert.KernelIdeal.nD Cert.KernelIdeal.τ).loc Cert.KernelIdeal.main_arg1) j = (r : EReal) := by
  exact (pre_split m h c).2 j

end Cert.Proof.Finite

end
-- ==== Proof.lean ====
/-
  The certificate: a Pallas kernel pair (a gate-table kernel, then a tiled kernel that fuses a matrix product with a
  gated max-minus-sum reduction) against its jnp reference, over the extended reals.

  Both programs compute, at (r, h),

      sum_i x(r,i) * w(h,i)  +  0.1 * ( max_i t(r,h,i) - sum_i t(r,h,i) ),   t(r,h,i) = |x(r,i) * w(h,i)| * S(i,h) * x(r,i),

  with S the sigmoid of the layer-normalised attention scores. The kernel precomputes G(i,h) = |w(h,i)| * S(i,h) once
  and accumulates the product, the sum and the running maximum of (x*|x|)(r,i) * G(i,h) over four tiles of the
  reduction axis; the reference forms the whole three-dimensional array. The two arrangements agree because a sum
  and a supremum split over the tiles, and |a*b| * (S*a) = (a*|a|) * (|b|*S) for real a, b (the precondition makes x
  and w real) and any extended real S.

  The frames: each kernel program runs as three host reshapes and two kernel regions; each region's body is run
  point by point against proof data naming what the staging buffers and the three scratch accumulators hold. The
  reference's run and its result term are read from its operations one at a time.
-/
import proofs.«166010_j21912923144501_1_alg».proof.Defs
import proofs.«166010_j21912923144501_1_alg».proof.Proof.Gen.Kernel
import proofs.«166010_j21912923144501_1_alg».proof.Proof.Gen.KernelIdeal
import proofs.«166010_j21912923144501_1_alg».proof.Proof.Gen.ReferenceIdeal
import proofs.«166010_j21912923144501_1_alg».proof.Proof.Gen.Pre_finite_inputs
import proofs.«166010_j21912923144501_1_alg».proof.Proof.Gen.ReferenceIdeal.Run
import proofs.«166010_j21912923144501_1_alg».proof.Proof.Gen.ReferenceIdeal.Read
import proofs.«166010_j21912923144501_1_alg».proof.Proof.MainRun
import proofs.«166010_j21912923144501_1_alg».proof.Proof.Word.MainRun
import proofs.«166010_j21912923144501_1_alg».proof.Proof.AccumValue
import proofs.«166010_j21912923144501_1_alg».proof.Proof.GateValue
import proofs.«166010_j21912923144501_1_alg».proof.Proof.RefValue
import proofs.«166010_j21912923144501_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_p : Cert.frame_Kernel := fun m ρ _ => Cert.Kernel.Hand.frame (F := Bits) m ρ

/-- So does the idealized kernel program. -/
theorem frame_pi : Cert.frame_KernelIdeal := fun m ρ _ => Cert.KernelIdeal.Hand.frame (F := Ideal) m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the ideal values the kernel's result buffer ends at the reduction region's output array, which is the
    specification's function of x, the weights and the gate table; the gate table is the specification's gate of the
    weights and the sigmoid table; and the reference's result is that same function. -/
theorem algebraic : Cert.algebraic_KernelIdeal_ReferenceIdeal := by
  intro m ρ m' ρ' hpre hagree
  refine ⟨fun c => (Cert.KernelIdeal.Hand.dat1 (F := Ideal) (Cert.KernelIdeal.Hand.V2 m) c).arrAt 3 Cert.KernelIdeal.cfg1.N,
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, (hagree c).1, (hagree c).2.1, (hagree c).2.2.1, (hagree c).2.2.2.1,
    (hagree c).2.2.2.2.1, (hagree c).2.2.2.2.2.1, (hagree c).2.2.2.2.2.2]
  rw [Cert.ReferenceIdeal.RefValue.ref_closed _ _ _ _ _ _ _ (Cert.Proof.Finite.real_x m hpre c) (Cert.Proof.Finite.real_w m hpre c)]
  refine Eq.symm ?_
  show (Cert.KernelIdeal.Hand.dat1 (F := Ideal) (Cert.KernelIdeal.Hand.V2 m) c).arrAt 3 Cert.KernelIdeal.cfg1.N = _
  rw [Cert.KernelIdeal.Hand.result_closed, Cert.KernelIdeal.Hand.V2_main_arg0, Cert.KernelIdeal.Hand.V2_main_arg1,
    Cert.KernelIdeal.Hand.V2_gate, Cert.KernelIdeal.Hand.gate_closed]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
